-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x25x250x3 : Shape := ⟨4, ![1024, 25, 250, 3]⟩
abbrev S250x2 : Shape := ⟨2, ![250, 2]⟩
abbrev S250x250 : Shape := ⟨2, ![250, 250]⟩
abbrev S1024x25 : Shape := ⟨2, ![1024, 25]⟩
abbrev S250 : Shape := ⟨1, ![250]⟩
abbrev S_ : Shape := ⟨0, ![]⟩

class Facts : Prop where
  bcast_S_S1024x25x250x3 : S_.BroadcastsInDim S1024x25x250x3 (![] : Fin 0 → Fin S1024x25x250x3.rank)
  reducesTo_S1024x25x250x3_S_d0_1_2_3 : S1024x25x250x3.ReducesTo [0, 1, 2, 3] S_
  h_S_ : 0 < S_.numel
  bcast_S_S250x2 : S_.BroadcastsInDim S250x2 (![] : Fin 0 → Fin S250x2.rank)
  reducesTo_S250x2_S_d0_1 : S250x2.ReducesTo [0, 1] S_
  bcast_S_S250x250 : S_.BroadcastsInDim S250x250 (![] : Fin 0 → Fin S250x250.rank)
  reducesTo_S250x250_S_d0_1 : S250x250.ReducesTo [0, 1] S_
  bcast_S_S1024x25 : S_.BroadcastsInDim S1024x25 (![] : Fin 0 → Fin S1024x25.rank)
  reducesTo_S1024x25_S_d0_1 : S1024x25.ReducesTo [0, 1] S_
  bcast_S_S250 : S_.BroadcastsInDim S250 (![] : Fin 0 → Fin S250.rank)
  reducesTo_S250_S_d0 : S250.ReducesTo [0] S_

variable [Facts]

def fn_part1 {F : FTy → Type} [FloatOps F] (main_arg4 : IVec S250 32) (main_v13 : IVec S_ 1) (main_v15 : IVec S1024x25 1) (main_c_5 : IVec S_ 1) : IVec S_ 1 :=
  let main_v16 : IVec S_ 1 := (fun x v => Host.reduce IntOp.andi x v reducesTo_S1024x25_S_d0_1 h_S_) main_v15 main_c_5
  let main_v17 : IVec S_ 1 := andi main_v13 main_v16
  let main_c_6 : IVec S_ 32 := constantI S_ 32 0#32
  let main_v18 : IVec S250 32 := broadcastInDim S250 ![] bcast_S_S250 main_c_6
  let main_v19 : IVec S250 1 := cmpi .sge main_arg4 main_v18
  let main_c_7 : IVec S_ 1 := constantI S_ 1 1#1
  let main_v20 : IVec S_ 1 := (fun x v => Host.reduce IntOp.andi x v reducesTo_S250_S_d0 h_S_) main_v19 main_c_7
  let main_v21 : IVec S_ 1 := andi main_v17 main_v20
  main_v21

def fn {F : FTy → Type} [FloatOps F] (main_arg0 : FVec F S1024x25x250x3 .f32) (main_arg1 : FVec F S250x2 .f32) (main_arg2 : FVec F S250x250 .f32) (main_arg3 : IVec S1024x25 32) (main_arg4 : IVec S250 32) : IVec S_ 1 :=
  let main_v0 : FVec F S1024x25x250x3 .f32 := Host.absf main_arg0
  let main_cst : FVec F S_ .f32 := constant S_ .f32 0x7F800000#32
  let main_v1 : FVec F S1024x25x250x3 .f32 := broadcastInDim S1024x25x250x3 ![] bcast_S_S1024x25x250x3 main_cst
  let main_v2 : IVec S1024x25x250x3 1 := cmpf .olt main_v0 main_v1
  let main_c : IVec S_ 1 := constantI S_ 1 1#1
  let main_v3 : IVec S_ 1 := (fun x v => Host.reduce IntOp.andi x v reducesTo_S1024x25x250x3_S_d0_1_2_3 h_S_) main_v2 main_c
  let main_v4 : FVec F S250x2 .f32 := Host.absf main_arg1
  let main_cst_0 : FVec F S_ .f32 := constant S_ .f32 0x7F800000#32
  let main_v5 : FVec F S250x2 .f32 := broadcastInDim S250x2 ![] bcast_S_S250x2 main_cst_0
  let main_v6 : IVec S250x2 1 := cmpf .olt main_v4 main_v5
  let main_c_1 : IVec S_ 1 := constantI S_ 1 1#1
  let main_v7 : IVec S_ 1 := (fun x v => Host.reduce IntOp.andi x v reducesTo_S250x2_S_d0_1 h_S_) main_v6 main_c_1
  let main_v8 : IVec S_ 1 := andi main_v3 main_v7
  let main_v9 : FVec F S250x250 .f32 := Host.absf main_arg2
  let main_cst_2 : FVec F S_ .f32 := constant S_ .f32 0x7F800000#32
  let main_v10 : FVec F S250x250 .f32 := broadcastInDim S250x250 ![] bcast_S_S250x250 main_cst_2
  let main_v11 : IVec S250x250 1 := cmpf .olt main_v9 main_v10
  let main_c_3 : IVec S_ 1 := constantI S_ 1 1#1
  let main_v12 : IVec S_ 1 := (fun x v => Host.reduce IntOp.andi x v reducesTo_S250x250_S_d0_1 h_S_) main_v11 main_c_3
  let main_v13 : IVec S_ 1 := andi main_v8 main_v12
  let main_c_4 : IVec S_ 32 := constantI S_ 32 0#32
  let main_v14 : IVec S1024x25 32 := broadcastInDim S1024x25 ![] bcast_S_S1024x25 main_c_4
  let main_v15 : IVec S1024x25 1 := cmpi .sge main_arg3 main_v14
  let main_c_5 : IVec S_ 1 := constantI S_ 1 1#1
  fn_part1 (F := F) main_arg4 main_v13 main_v15 main_c_5
-- ==== Kernel.lean ====
abbrev S1024x25x250x3 : Shape := ⟨4, ![1024, 25, 250, 3]⟩
abbrev S250x2 : Shape := ⟨2, ![250, 2]⟩
abbrev S250x250 : Shape := ⟨2, ![250, 250]⟩
abbrev S1024x25 : Shape := ⟨2, ![1024, 25]⟩
abbrev S250 : Shape := ⟨1, ![250]⟩
abbrev S_ : Shape := ⟨0, ![]⟩
abbrev S1024x25x1 : Shape := ⟨3, ![1024, 25, 1]⟩
abbrev S1024x25x750 : Shape := ⟨3, ![1024, 25, 750]⟩
abbrev S1024x25x1500 : Shape := ⟨3, ![1024, 25, 1500]⟩
abbrev S4x25x750 : Shape := ⟨3, ![4, 25, 750]⟩
abbrev S4x25x1 : Shape := ⟨3, ![4, 25, 1]⟩
abbrev S4x25x1500 : Shape := ⟨3, ![4, 25, 1500]⟩
abbrev S100x250 : Shape := ⟨2, ![100, 250]⟩
abbrev S100x1 : Shape := ⟨2, ![100, 1]⟩
abbrev S100x2 : Shape := ⟨2, ![100, 2]⟩
abbrev S4x25x250x3 : Shape := ⟨4, ![4, 25, 250, 3]⟩
abbrev S4x25x2 : Shape := ⟨3, ![4, 25, 2]⟩
abbrev S4x25x1x2 : Shape := ⟨4, ![4, 25, 1, 2]⟩
abbrev S4x25x250x2 : Shape := ⟨4, ![4, 25, 250, 2]⟩
abbrev S4x25x250 : Shape := ⟨3, ![4, 25, 250]⟩
abbrev S4x25x250x1 : Shape := ⟨4, ![4, 25, 250, 1]⟩
abbrev S4x25x250x6 : Shape := ⟨4, ![4, 25, 250, 6]⟩
abbrev S1024x25x250x6 : Shape := ⟨4, ![1024, 25, 250, 6]⟩

abbrev nBuf : Space → Nat
  | .hbm => 35
  | .vmem => 10
  | .smem => 0
  | _ => 0

abbrev bufTy : (tb : Table) → Fin (tcTables nBuf tb) → BufTy
  | .hbm, ⟨0, _⟩ => ⟨S1024x25x250x3, .f32⟩
  | .hbm, ⟨1, _⟩ => ⟨S250x2, .f32⟩
  | .hbm, ⟨2, _⟩ => ⟨S250x250, .f32⟩
  | .hbm, ⟨3, _⟩ => ⟨S1024x25, .i32⟩
  | .hbm, ⟨4, _⟩ => ⟨S250, .i32⟩
  | .hbm, ⟨5, _⟩ => ⟨S_, .i32⟩
  | .hbm, ⟨6, _⟩ => ⟨S1024x25, .i32⟩
  | .hbm, ⟨7, _⟩ => ⟨S1024x25, .i1⟩
  | .hbm, ⟨8, _⟩ => ⟨S_, .i32⟩
  | .hbm, ⟨9, _⟩ => ⟨S1024x25, .i32⟩
  | .hbm, ⟨10, _⟩ => ⟨S1024x25, .i32⟩
  | .hbm, ⟨11, _⟩ => ⟨S1024x25, .i32⟩
  | .hbm, ⟨12, _⟩ => ⟨S1024x25x1, .i32⟩
  | .hbm, ⟨13, _⟩ => ⟨S1024x25, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1024x25, .i32⟩
  | .hbm, ⟨18, _⟩ => ⟨S1024x25, .i32⟩
  | .hbm, ⟨19, _⟩ => ⟨S_, .i32⟩
  | .hbm, ⟨20, _⟩ => ⟨S1024x25, .i32⟩
  | .hbm, ⟨21, _⟩ => ⟨S1024x25, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1024x25, .i32⟩
  | .hbm, ⟨26, _⟩ => ⟨S1024x25, .i32⟩
  | .hbm, ⟨27, _⟩ => ⟨S_, .i32⟩
  | .hbm, ⟨28, _⟩ => ⟨S1024x25, .i32⟩
  | .hbm, ⟨29, _⟩ => ⟨S1024x25, .i32⟩
  | .hbm, ⟨30, _⟩ => ⟨S1024x25x1, .i32⟩
  | .hbm, ⟨31, _⟩ => ⟨S1024x25x1, .i32⟩
  | .hbm, ⟨32, _⟩ => ⟨S1024x25x750, .f32⟩
  | .hbm, ⟨33, _⟩ => ⟨S1024x25x1500, .f32⟩
  | .hbm, ⟨34, _⟩ => ⟨S1024x25x250x6, .f32⟩
  | .local _ .vmem, ⟨0, _⟩ => ⟨S4x25x750, .f32⟩
  | .local _ .vmem, ⟨1, _⟩ => ⟨S4x25x750, .f32⟩
  | .local _ .vmem, ⟨2, _⟩ => ⟨S4x25x1, .i32⟩
  | .local _ .vmem, ⟨3, _⟩ => ⟨S4x25x1, .i32⟩
  | .local _ .vmem, ⟨4, _⟩ => ⟨S4x25x1, .i32⟩
  | .local _ .vmem, ⟨5, _⟩ => ⟨S4x25x1, .i32⟩
  | .local _ .vmem, ⟨6, _⟩ => ⟨S250x2, .f32⟩
  | .local _ .vmem, ⟨7, _⟩ => ⟨S250x250, .f32⟩
  | .local _ .vmem, ⟨8, _⟩ => ⟨S4x25x1500, .f32⟩
  | .local _ .vmem, ⟨9, _⟩ => ⟨S4x25x1500, .f32⟩
  | _, _ => ⟨S1024x25x250x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_c_3 : Ref sig .tc := ⟨.hbm, 22, rfl⟩
abbrev main_c_4 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x25x750 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x25x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x25x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S250x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S250x250 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x25x1500 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1024x25 : S_.BroadcastsInDim S1024x25 (![] : Fin 0 → Fin S1024x25.rank)
  bcast_S1024x25_S1024x25x1_0_1 : S1024x25.BroadcastsInDim S1024x25x1 (![0, 1] : Fin 2 → Fin S1024x25x1.rank)
  shapeCasts_S1024x25_S1024x25x1 : S1024x25.ShapeCasts S1024x25x1
  shapeCasts_S1024x25x250x3_S1024x25x750 : S1024x25x250x3.ShapeCasts S1024x25x750
  iota_S100x250_d1_w32 : S100x250.Iotas .tc 32 [1]
  inb_S4x25x1_S4x25x1_0_0_0 : ∀ a, (![0, 0, 0] : Fin 3 → Nat) a + S4x25x1.size a ≤ S4x25x1.size a
  h_S4x25x1 : 0 < S4x25x1.numel
  shapeCasts_S4x25x1_S4x25x1 : S4x25x1.ShapeCasts S4x25x1
  shapeCasts_S4x25x1_S100x1 : S4x25x1.ShapeCasts S100x1
  broadcasts_S100x1_S100x250 : S100x1.Broadcasts S100x250
  natLt_1_32 : 1 < 32
  inb_S250x2_S250x2_0_0 : ∀ a, (![0, 0] : Fin 2 → Nat) a + S250x2.size a ≤ S250x2.size a
  h_S250x2 : 0 < S250x2.numel
  inb_S250x250_S250x250_0_0 : ∀ a, (![0, 0] : Fin 2 → Nat) a + S250x250.size a ≤ S250x250.size a
  h_S250x250 : 0 < S250x250.numel
  inb_S4x25x750_S4x25x750_0_0_0 : ∀ a, (![0, 0, 0] : Fin 3 → Nat) a + S4x25x750.size a ≤ S4x25x750.size a
  h_S4x25x750 : 0 < S4x25x750.numel
  shapeCasts_S4x25x750_S4x25x750 : S4x25x750.ShapeCasts S4x25x750
  shapeCasts_S4x25x750_S4x25x250x3 : S4x25x750.ShapeCasts S4x25x250x3
  shapeCasts_S100x2_S4x25x2 : S100x2.ShapeCasts S4x25x2
  shapeCasts_S4x25x2_S4x25x1x2 : S4x25x2.ShapeCasts S4x25x1x2
  shapeCasts_S4x25x1x2_S4x25x1x2 : S4x25x1x2.ShapeCasts S4x25x1x2
  broadcasts_S4x25x1x2_S4x25x250x2 : S4x25x1x2.Broadcasts S4x25x250x2
  shapeCasts_S100x250_S4x25x250 : S100x250.ShapeCasts S4x25x250
  shapeCasts_S4x25x250_S4x25x250x1 : S4x25x250.ShapeCasts S4x25x250x1
  concatenates_S4x25x250x3_S4x25x250x2_S4x25x250x1_S4x25x250x6_d3 : Shape.Concatenates [S4x25x250x3, S4x25x250x2, S4x25x250x1] S4x25x250x6 3
  shapeCasts_S4x25x250x6_S4x25x1500 : S4x25x250x6.ShapeCasts S4x25x1500
  inb_S4x25x1500_S4x25x1500_0_0_0 : ∀ a, (![0, 0, 0] : Fin 3 → Nat) a + S4x25x1500.size a ≤ S4x25x1500.size a
  h_S4x25x1500 : 0 < S4x25x1500.numel
  shapeCasts_S1024x25x1500_S1024x25x250x6 : S1024x25x1500.ShapeCasts S1024x25x250x6
  gather_S250_S1024x25x1_S1024x25_n_0_n_n_0_2_1_wf : GatherDims.WF S250 S1024x25x1 S1024x25 [] [0] [] [0] [] 2 ![1]
  dot_S100x250_S250x2_S100x2_1_0_0_1_n_n_wf : DotDims.WF S100x250 S250x2 S100x2 [1] [0] [0] [1] [] []
  dot_S100x250_S250x250_S100x250_1_0_0_1_n_n_wf : DotDims.WF S100x250 S250x250 S100x250 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x25x750.size a ≤ S1024x25x750.size a
  hwx0_0 : ∀ i : grid0.Coords, EltTy.bits .f32 = 32 ∨ (Rect.block (s := S1024x25x750) S4x25x750.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x25x1.size a ≤ S1024x25x1.size a
  hwx0_1 : ∀ i : grid0.Coords, EltTy.bits .i32 = 32 ∨ (Rect.block (s := S1024x25x1) S4x25x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x25x1.size a ≤ S1024x25x1.size a
  hwx0_2 : ∀ i : grid0.Coords, EltTy.bits .i32 = 32 ∨ (Rect.block (s := S1024x25x1) S4x25x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S250x2.size a ≤ S250x2.size a
  hwx0_3 : ∀ i : grid0.Coords, EltTy.bits .f32 = 32 ∨ (Rect.block (s := S250x2) S250x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S250x250.size a ≤ S250x250.size a
  hwx0_4 : ∀ i : grid0.Coords, EltTy.bits .f32 = 32 ∨ (Rect.block (s := S250x250) S250x250.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x25x1500.size a ≤ S1024x25x1500.size a
  hwx0_5 : ∀ i : grid0.Coords, EltTy.bits .f32 = 32 ∨ (Rect.block (s := S1024x25x1500) S4x25x1500.size (cc0_transform_5 i) (hinb0_5 i)).WholeWords (EltTy.packing .f32)

variable [Facts₀]

def gather_S250_S1024x25x1_S1024x25_n_0_n_n_0_2_1 : GatherDims S250 S1024x25x1 S1024x25 where
  offsetDims := []
  collapsedSliceDims := [0]
  operandBatchingDims := []
  startIndicesBatchingDims := []
  startIndexMap := [0]
  indexVectorDim := 2
  sliceSizes := ![1]
  wf := gather_S250_S1024x25x1_S1024x25_n_0_n_n_0_2_1_wf
def dot_S100x250_S250x2_S100x2_1_0_0_1_n_n : DotDims S100x250 S250x2 S100x2 where
  lhsContracting := [1]
  rhsContracting := [0]
  lhsNonContracting := [0]
  rhsNonContracting := [1]
  lhsBatch := []
  rhsBatch := []
  wf := dot_S100x250_S250x2_S100x2_1_0_0_1_n_n_wf
def dot_S100x250_S250x250_S100x250_1_0_0_1_n_n : DotDims S100x250 S250x250 S100x250 where
  lhsContracting := [1]
  rhsContracting := [0]
  lhsNonContracting := [0]
  rhsNonContracting := [1]
  lhsBatch := []
  rhsBatch := []
  wf := dot_S100x250_S250x250_S100x250_1_0_0_1_n_n_wf

abbrev win0_0 : Pipeline.Window sig grid0 :=
  Pipeline.Window.ofSpec (Memref.whole main_v11) S4x25x750.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4x25x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4x25x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S250x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S250x250.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4x25x1500.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x25x250x3 : Shape := ⟨4, ![1024, 25, 250, 3]⟩
abbrev S250x2 : Shape := ⟨2, ![250, 2]⟩
abbrev S250x250 : Shape := ⟨2, ![250, 250]⟩
abbrev S1024x25 : Shape := ⟨2, ![1024, 25]⟩
abbrev S250 : Shape := ⟨1, ![250]⟩
abbrev S_ : Shape := ⟨0, ![]⟩
abbrev S1024x25x1 : Shape := ⟨3, ![1024, 25, 1]⟩
abbrev S1024x25x2 : Shape := ⟨3, ![1024, 25, 2]⟩
abbrev S1024x25x250 : Shape := ⟨3, ![1024, 25, 250]⟩
abbrev S1024x25x1x2 : Shape := ⟨4, ![1024, 25, 1, 2]⟩
abbrev S1024x25x250x2 : Shape := ⟨4, ![1024, 25, 250, 2]⟩
abbrev S1024x25x250x5 : Shape := ⟨4, ![1024, 25, 250, 5]⟩
abbrev S1024x25x250x1 : Shape := ⟨4, ![1024, 25, 250, 1]⟩
abbrev S1024x25x250x6 : Shape := ⟨4, ![1024, 25, 250, 6]⟩

abbrev nBuf : Space → Nat
  | .hbm => 37
  | .vmem => 0
  | .smem => 0
  | _ => 0

abbrev bufTy : (tb : Table) → Fin (tcTables nBuf tb) → BufTy
  | .hbm, ⟨0, _⟩ => ⟨S1024x25x250x3, .f32⟩
  | .hbm, ⟨1, _⟩ => ⟨S250x2, .f32⟩
  | .hbm, ⟨2, _⟩ => ⟨S250x250, .f32⟩
  | .hbm, ⟨3, _⟩ => ⟨S1024x25, .i32⟩
  | .hbm, ⟨4, _⟩ => ⟨S250, .i32⟩
  | .hbm, ⟨5, _⟩ => ⟨S_, .i32⟩
  | .hbm, ⟨6, _⟩ => ⟨S1024x25, .i32⟩
  | .hbm, ⟨7, _⟩ => ⟨S1024x25, .i1⟩
  | .hbm, ⟨8, _⟩ => ⟨S_, .i32⟩
  | .hbm, ⟨9, _⟩ => ⟨S1024x25, .i32⟩
  | .hbm, ⟨10, _⟩ => ⟨S1024x25, .i32⟩
  | .hbm, ⟨11, _⟩ => ⟨S1024x25, .i32⟩
  | .hbm, ⟨12, _⟩ => ⟨S1024x25x1, .i32⟩
  | .hbm, ⟨13, _⟩ => ⟨S1024x25x2, .f32⟩
  | .hbm, ⟨14, _⟩ => ⟨S_, .i32⟩
  | .hbm, ⟨15, _⟩ => ⟨S1024x25, .i32⟩
  | .hbm, ⟨16, _⟩ => ⟨S1024x25, .i1⟩
  | .hbm, ⟨17, _⟩ => ⟨S_, .i32⟩
  | .hbm, ⟨18, _⟩ => ⟨S1024x25, .i32⟩
  | .hbm, ⟨19, _⟩ => ⟨S1024x25, .i32⟩
  | .hbm, ⟨20, _⟩ => ⟨S1024x25, .i32⟩
  | .hbm, ⟨21, _⟩ => ⟨S1024x25x1, .i32⟩
  | .hbm, ⟨22, _⟩ => ⟨S1024x25, .i32⟩
  | .hbm, ⟨23, _⟩ => ⟨S_, .i32⟩
  | .hbm, ⟨24, _⟩ => ⟨S1024x25, .i32⟩
  | .hbm, ⟨25, _⟩ => ⟨S1024x25, .i1⟩
  | .hbm, ⟨26, _⟩ => ⟨S_, .i32⟩
  | .hbm, ⟨27, _⟩ => ⟨S1024x25, .i32⟩
  | .hbm, ⟨28, _⟩ => ⟨S1024x25, .i32⟩
  | .hbm, ⟨29, _⟩ => ⟨S1024x25, .i32⟩
  | .hbm, ⟨30, _⟩ => ⟨S1024x25x1, .i32⟩
  | .hbm, ⟨31, _⟩ => ⟨S1024x25x250, .f32⟩
  | .hbm, ⟨32, _⟩ => ⟨S1024x25x1x2, .f32⟩
  | .hbm, ⟨33, _⟩ => ⟨S1024x25x250x2, .f32⟩
  | .hbm, ⟨34, _⟩ => ⟨S1024x25x250x5, .f32⟩
  | .hbm, ⟨35, _⟩ => ⟨S1024x25x250x1, .f32⟩
  | .hbm, ⟨36, _⟩ => ⟨S1024x25x250x6, .f32⟩
  | _, _ => ⟨S1024x25x250x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S_S1024x25 : S_.BroadcastsInDim S1024x25 (![] : Fin 0 → Fin S1024x25.rank)
  bcast_S1024x25_S1024x25x1_0_1 : S1024x25.BroadcastsInDim S1024x25x1 (![0, 1] : Fin 2 → Fin S1024x25x1.rank)
  bcast_S1024x25x2_S1024x25x1x2_0_1_3 : S1024x25x2.BroadcastsInDim S1024x25x1x2 (![0, 1, 3] : Fin 3 → Fin S1024x25x1x2.rank)
  bcast_S1024x25x1x2_S1024x25x250x2_0_1_2_3 : S1024x25x1x2.BroadcastsInDim S1024x25x250x2 (![0, 1, 2, 3] : Fin 4 → Fin S1024x25x250x2.rank)
  concatenates_S1024x25x250x3_S1024x25x250x2_S1024x25x250x5_d3 : Shape.Concatenates [S1024x25x250x3, S1024x25x250x2] S1024x25x250x5 3
  bcast_S1024x25x250_S1024x25x250x1_0_1_2 : S1024x25x250.BroadcastsInDim S1024x25x250x1 (![0, 1, 2] : Fin 3 → Fin S1024x25x250x1.rank)
  concatenates_S1024x25x250x5_S1024x25x250x1_S1024x25x250x6_d3 : Shape.Concatenates [S1024x25x250x5, S1024x25x250x1] S1024x25x250x6 3
  gather_S250x2_S1024x25x1_S1024x25x2_2_0_n_n_0_2_12_wf : GatherDims.WF S250x2 S1024x25x1 S1024x25x2 [2] [0] [] [0] [] 2 ![1, 2]
  gather_S250_S1024x25x1_S1024x25_n_0_n_n_0_2_1_wf : GatherDims.WF S250 S1024x25x1 S1024x25 [] [0] [] [0] [] 2 ![1]
  gather_S250x250_S1024x25x1_S1024x25x250_2_0_n_n_0_2_1250_wf : GatherDims.WF S250x250 S1024x25x1 S1024x25x250 [2] [0] [] [0] [] 2 ![1, 250]

variable [Facts₀]

def gather_S250x2_S1024x25x1_S1024x25x2_2_0_n_n_0_2_12 : GatherDims S250x2 S1024x25x1 S1024x25x2 where
  offsetDims := [2]
  collapsedSliceDims := [0]
  operandBatchingDims := []
  startIndicesBatchingDims := []
  startIndexMap := [0]
  indexVectorDim := 2
  sliceSizes := ![1, 2]
  wf := gather_S250x2_S1024x25x1_S1024x25x2_2_0_n_n_0_2_12_wf
def gather_S250_S1024x25x1_S1024x25_n_0_n_n_0_2_1 : GatherDims S250 S1024x25x1 S1024x25 where
  offsetDims := []
  collapsedSliceDims := [0]
  operandBatchingDims := []
  startIndicesBatchingDims := []
  startIndexMap := [0]
  indexVectorDim := 2
  sliceSizes := ![1]
  wf := gather_S250_S1024x25x1_S1024x25_n_0_n_n_0_2_1_wf
def gather_S250x250_S1024x25x1_S1024x25x250_2_0_n_n_0_2_1250 : GatherDims S250x250 S1024x25x1 S1024x25x250 where
  offsetDims := [2]
  collapsedSliceDims := [0]
  operandBatchingDims := []
  startIndicesBatchingDims := []
  startIndexMap := [0]
  indexVectorDim := 2
  sliceSizes := ![1, 250]
  wf := gather_S250x250_S1024x25x1_S1024x25x250_2_0_n_n_0_2_1250_wf

class Facts : Prop extends Facts₀ where

variable [Facts]
-- ==== Proof.PreDecode.lean ====
/-
  What the precondition says about the two integer inputs: every word of node_last_visit and of patrol_index,
  read as a signed integer, is at least zero.
-/
import proofs.«412221_j40123584479691_4_alg».proof.Pre_finite_inputs
import proofs.«412221_j40123584479691_4_alg».proof.Proof.Gen.Pre_finite_inputs
import Idealize.ShloMosaic.PureOps.Ideal
import Idealize.ShloMosaic.Lib.ReduceAll
import Idealize.ShloMosaic.Lib.WordArith
import Idealize.ShloMosaic.Lib.ValueIdx

noncomputable section

namespace Cert.GatherConcat.Pre

open Idealize.ShloMosaic

/-- The result shape of the precondition has rank zero, hence a single index. -/
instance subsingleton_scalar_idx : Subsingleton Cert.Pre_finite_inputs.S_.Idx :=
  ⟨fun a b => funext fun d => d.elim0⟩

/-- A word that tests `≥ 0` (signed) against the broadcast of the scalar constant zero is non-negative
    read as a signed integer: the broadcast reads the constant at every index, and the signed comparison
    being the one-bit word 1 is the order of the signed readings. -/
theorem nonneg_of_cmpi_sge_zero {T : Shape} (hb : Cert.Pre_finite_inputs.S_.BroadcastsInDim T ![]) (x : IVec T 32)
    (i : T.Idx)
    (e : cmpi .sge x (broadcastInDim T ![] hb (constantI Cert.Pre_finite_inputs.S_ 32 0#32)) i = 1#1) :
    0 ≤ (x i).toInt := by
  have e' : IntOp.cmpi .sge (x i) 0#32 = 1#1 := e
  have h0 : (0#32 : BitVec 32).toInt = 0 := by decide
  rw [IntOp.cmpi_sge, h0] at e'
  exact e'

/-- The precondition holding gives both integer inputs non-negative, word by word. -/
theorem nonneg_of_pre [Cert.Pre_finite_inputs.Facts]
    (x0 : FVec Ideal Cert.Pre_finite_inputs.S1024x25x250x3 .f32) (x1 : FVec Ideal Cert.Pre_finite_inputs.S250x2 .f32)
    (x2 : FVec Ideal Cert.Pre_finite_inputs.S250x250 .f32) (x3 : IVec Cert.Pre_finite_inputs.S1024x25 32)
    (x4 : IVec Cert.Pre_finite_inputs.S250 32)
    (h : Cert.Pre_finite_inputs.fn (F := Ideal) x0 x1 x2 x3 x4 = fun _ => 1#1) :
    (∀ i, 0 ≤ (x3 i).toInt) ∧ (∀ i, 0 ≤ (x4 i).toInt) := by
  -- the result has one index; read the claim there
  have h1 := congrFun h ValueIdx.ix0
  dsimp only [Cert.Pre_finite_inputs.fn, Cert.Pre_finite_inputs.fn_part1] at h1
  -- the outer conjunction: (floats ∧ all(node_last_visit ≥ 0)) ∧ all(patrol_index ≥ 0)
  obtain ⟨h17, h20⟩ := IntOp.andi_eq_one.1 h1
  obtain ⟨_, h16⟩ := IntOp.andi_eq_one.1 h17
  refine ⟨fun i => ?_, fun i => ?_⟩
  · exact nonneg_of_cmpi_sge_zero _ x3 i (Host.reduce_andi_all _ _ _ _ _ h16 i)
  · exact nonneg_of_cmpi_sge_zero _ x4 i (Host.reduce_andi_all _ _ _ _ _ h20 i)

end Cert.GatherConcat.Pre

end
-- ==== Proof.Spec.lean ====
/-
  The result both programs compute, as ONE function of the five argument arrays.

  Write n = node_last_visit[b, a] read as a signed integer, r = min (max n 0) 249 the table row it names once clamped
  into the table, and q the row the word patrol_index[r] names, clamped the same way. The result at (b, a, j, ch) is
    state[b, a, j, ch]        for ch = 0, 1, 2,
    nodes_coords[r, ch - 3]   for ch = 3, 4   (the node's two coordinates, the same for every j),
    adj[q, j]                 for ch = 5      (the row of the adjacency table the patrol position names).
  Also here: a sum of a table column against the indicator of one row is that row's entry, on the extended reals,
  with no finiteness asked (0 * x = 0 and 0 + x = x for every extended real x); and the word facts that turn the
  kernel's comparison with a lane number, widened and converted, into that indicator.
-/
import Idealize.ShloMosaic.PureOps.Ideal
import Idealize.ShloMosaic.Lib.ValueIdx
import Idealize.ShloMosaic.Lib.WordArith

noncomputable section

open scoped BigOperators

namespace Cert.GatherConcat

open Idealize.ShloMosaic Idealize.ShloMosaic.ValueIdx

/-- The table row a 32-bit word names: its signed value clamped into [0, 249]. -/
def rowOf (v : BitVec 32) : Fin 250 := ⟨min v.toInt.toNat 249, by omega⟩

theorem rowOf_val (v : BitVec 32) : (rowOf v).val = min v.toInt.toNat 249 := rfl

/-- The row of nodes_coords that (b, a) reads. -/
def nodeRow (nlv : IVec ⟨2, ![1024, 25]⟩ 32) (b : Fin 1024) (a : Fin 25) : Fin 250 := rowOf (nlv (ix2 b a))

/-- The row of adj that (b, a) reads: the patrol position of its node. -/
def patrolRow (nlv : IVec ⟨2, ![1024, 25]⟩ 32) (pidx : IVec ⟨1, ![250]⟩ 32) (b : Fin 1024) (a : Fin 25) : Fin 250 :=
  rowOf (pidx (ix1 (nodeRow nlv b a)))

/-- The result array, index by index. -/
def G (state : (⟨4, ![1024, 25, 250, 3]⟩ : Shape).Idx → EReal) (coords : (⟨2, ![250, 2]⟩ : Shape).Idx → EReal)
    (adj : (⟨2, ![250, 250]⟩ : Shape).Idx → EReal) (nlv : IVec ⟨2, ![1024, 25]⟩ 32) (pidx : IVec ⟨1, ![250]⟩ 32) :
    (⟨4, ![1024, 25, 250, 6]⟩ : Shape).Idx → EReal := fun i =>
  if h : (i 3).val < 3 then state (ix4 (i 0) (i 1) (i 2) ⟨(i 3).val, h⟩)
  else if h' : (i 3).val < 5 then coords (ix2 (nodeRow nlv (i 0) (i 1)) ⟨(i 3).val - 3, by omega⟩)
  else adj (ix2 (patrolRow nlv pidx (i 0) (i 1)) (i 2))

variable (state : (⟨4, ![1024, 25, 250, 3]⟩ : Shape).Idx → EReal) (coords : (⟨2, ![250, 2]⟩ : Shape).Idx → EReal)
  (adj : (⟨2, ![250, 250]⟩ : Shape).Idx → EReal) (nlv : IVec ⟨2, ![1024, 25]⟩ 32) (pidx : IVec ⟨1, ![250]⟩ 32)

/-- The first three channels are the state's. -/
theorem G_state (b : Fin 1024) (a : Fin 25) (j : Fin 250) (ch : Fin 6) (h : ch.val < 3) :
    G state coords adj nlv pidx (ix4 b a j ch) = state (ix4 b a j ⟨ch.val, h⟩) := by
  unfold G
  exact dif_pos h

/-- Channels 3 and 4 are the node's coordinates. -/
theorem G_coords (b : Fin 1024) (a : Fin 25) (j : Fin 250) (ch : Fin 6) (h3 : 3 ≤ ch.val) (h5 : ch.val < 5) :
    G state coords adj nlv pidx (ix4 b a j ch) = coords (ix2 (nodeRow nlv b a) ⟨ch.val - 3, by omega⟩) := by
  unfold G
  rw [dif_neg (show ¬ ((ix4 b a j ch : (⟨4, ![1024, 25, 250, 6]⟩ : Shape).Idx) 3).val < 3 from Nat.not_lt.mpr h3)]
  exact dif_pos h5

/-- Channel 5 is the adjacency row. -/
theorem G_adj (b : Fin 1024) (a : Fin 25) (j : Fin 250) (ch : Fin 6) (h5 : ch.val = 5) :
    G state coords adj nlv pidx (ix4 b a j ch) = adj (ix2 (patrolRow nlv pidx b a) j) := by
  unfold G
  rw [dif_neg (show ¬ ((ix4 b a j ch : (⟨4, ![1024, 25, 250, 6]⟩ : Shape).Idx) 3).val < 3 from by
        show ¬ ch.val < 3; omega),
    dif_neg (show ¬ ((ix4 b a j ch : (⟨4, ![1024, 25, 250, 6]⟩ : Shape).Idx) 3).val < 5 from by
        show ¬ ch.val < 5; omega)]

/-! ## A column against the indicator of a row -/

/-- Summing a column weighted by the indicator of row r leaves the entry of row r: every other term is 0 * x = 0. -/
theorem sum_indicator_mul {K : Nat} (r : Fin K) (t : Fin K → EReal) :
    ∑ k : Fin K, (if k = r then (1 : EReal) else 0) * t k = t r := by
  rw [Finset.sum_eq_single r]
  · rw [if_pos rfl, one_mul]
  · intro k _ hk
    rw [if_neg hk, zero_mul]
  · intro h
    exact absurd (Finset.mem_univ r) h

/-! ## The words -/

/-- Clamping a signed word at 0 from below and 249 from above leaves the natural number min (max n 0) 249. -/
theorem toNat_clip (n : BitVec 32) :
    (IntOp.minsi 249#32 (IntOp.maxsi 0#32 n)).toNat = min n.toInt.toNat 249 := by
  have hm : (IntOp.maxsi 0#32 n).toNat = n.toInt.toNat := WordArith.toNat_maxsi_zero n
  have hlt : (IntOp.maxsi 0#32 n).toNat < 2 ^ 31 := by
    rw [hm]
    have e := BitVec.toInt_eq_toNat_cond n
    have := n.isLt
    omega
  rw [WordArith.toNat_minsi_of_lt 249#32 (IntOp.maxsi 0#32 n) (by decide) hlt, hm]
  show min 249 n.toInt.toNat = _
  exact Nat.min_comm _ _

/-- The kernel's indicator: the bit of "the clamped word is lane k", widened to 32 bits and converted, is 1 at the
    lane the word names and 0 at every other lane. -/
theorem hot_eq (v : BitVec 32) (hv : v.toNat < 250) (k : Fin 250) :
    (((BitVec.zeroExtend 32 (IntOp.cmpi .eq v (BitVec.ofNat 32 k.val))).toInt : ℝ) : EReal)
      = if k = (⟨v.toNat, hv⟩ : Fin 250) then (1 : EReal) else 0 := by
  by_cases hk : k = (⟨v.toNat, hv⟩ : Fin 250)
  · have hv' : v = BitVec.ofNat 32 k.val := by
      apply BitVec.eq_of_toNat_eq
      rw [hk]
      simp only [BitVec.toNat_ofNat]
      omega
    rw [if_pos hk, ← hv']
    simp [IntOp.cmpi]
  · have hne : v ≠ BitVec.ofNat 32 k.val := by
      intro h
      apply hk
      apply Fin.ext
      have := congrArg BitVec.toNat h
      simp only [BitVec.toNat_ofNat] at this
      have hk2 := k.isLt
      show k.val = v.toNat
      omega
    have hb : (v == BitVec.ofNat 32 k.val) = false := beq_eq_false_iff_ne.mpr hne
    rw [if_neg hk]
    simp [IntOp.cmpi, hb]

end Cert.GatherConcat

end
-- ==== Proof.RefValue.lean ====
/-
  The reference's result array is the specification's function of the five argument arrays, once both integer
  inputs are non-negative (so that the reference's wrap of a negative index never fires).

  First a gather of whole rows read at an index: a table [N, D] gathered at start indices [R, C, 1] with the row axis
  collapsed gives, at (i, j, k), the table's entry (r, k) where r is the start index at (i, j, 0) read as a signed
  integer and clamped into [0, N - 1]. Then the reference stage by stage: each of its three wraps
  select (n < 0) (n + 250) n is n itself when n is non-negative, so the three gathers read the rows the
  specification names, and the two concatenations along the last axis place the state in channels 0, 1, 2, the
  node's coordinates in channels 3, 4 and the adjacency row in channel 5.
-/
import proofs.«412221_j40123584479691_4_alg».proof.Proof.Gen.ReferenceIdeal.Read
import proofs.«412221_j40123584479691_4_alg».proof.Proof.Spec
import Idealize.ShloMosaic.Lib.ValueIdx
import Idealize.ShloMosaic.Lib.Pipeline.Value

noncomputable section

namespace Cert.GatherConcat.Ref

open Idealize.ShloMosaic Idealize.ShloMosaic.ValueIdx Cert.ReferenceIdeal

/-! ## A gather of rows, read at an index -/

section Row
variable {α : Type}

/-- The dimension numbers of a row gather: operand [N, D], start indices [R, C, 1], result [R, C, D]; the result's
    last axis is the offset axis, the operand's row axis is collapsed and is the one the start index names, and a
    slice is one whole row. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The row gather at (i, j, k): the operand's entry (r, k), r the start index at (i, j, 0) read signed and clamped
    into [0, N - 1]. On the row axis the operand coordinate is the clamped start (no batching, no offset); on the
    column axis the start is 0 and the offset coordinate is k. -/
theorem gather_row_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (i : Fin R) (j : Fin C) (k : Fin D) :
    Host.gather (rowDims N D R C wf) x idx (ix3 i j k)
      = x (ix2 ⟨min (idx (ix3 i j (0 : Fin 1))).toInt.toNat (N - 1), by omega⟩ k) := by
  unfold Host.gather
  congr 1
  funext a
  refine Fin.ext ?_
  match a with
  | ⟨0, _⟩ =>
    show (rowDims N D R C wf).start (ix3 i j k) idx 0 + (rowDims N D R C wf).batchCoord (ix3 i j k) 0
        + (rowDims N D R C wf).offCoord (ix3 i j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 i j k) ⟨List.idxOf (0 : Fin 2) (rowDims N D R C wf).startIndexMap,
        List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N D R C wf).start (ix3 i j k) idx 1 + (rowDims N D R C wf).batchCoord (ix3 i j k) 1
        + (rowDims N D R C wf).offCoord (ix3 i j k) 1 = k.val
    rw [GatherDims.batchCoord_eq_zero _ _ _ List.not_mem_nil]
    unfold GatherDims.start
    rw [dif_neg (show ¬ (1 : Fin 2) ∈ (rowDims N D R C wf).startIndexMap from
      fun h => Nat.one_ne_zero (congrArg Fin.val (List.mem_singleton.mp h)))]
    unfold GatherDims.offCoord
    rw [dif_pos (show (1 : Fin 2) ∈ (rowDims N D R C wf).sKept from
      (GatherDims.mem_sKept _ _).mpr ⟨fun h => Nat.one_ne_zero (congrArg Fin.val (List.mem_singleton.mp h)), List.not_mem_nil⟩)]
    simp only [Nat.zero_add, Nat.add_zero]
    rfl

end Row

/-! ## The wrap of a negative index -/

/-- On a non-negative word the wrap select (n < 0) (n + 250) n is n: the comparison's bit is 0. -/
theorem wrap_of_nonneg (n : BitVec 32) (h : 0 ≤ n.toInt) :
    Scalar.select (IntOp.cmpi .slt n 0#32) (IntOp.addi n 250#32) n = n := by
  have hs : n.slt 0#32 = false := by
    rw [Bool.eq_false_iff]
    intro hs
    rw [BitVec.slt_iff_toInt_lt] at hs
    have h0 : (0#32 : BitVec 32).toInt = 0 := rfl
    omega
  show Scalar.select (BitVec.ofBool (n.slt 0#32)) (IntOp.addi n 250#32) n = n
  rw [hs]
  exact select_zero _ _

/-- The clamped row of a word, as a gather reads it, is the specification's row of any equal word. -/
theorem row_eq {v w : BitVec 32} (h : v = w) (p : min v.toInt.toNat (250 - 1) < 250) :
    (⟨min v.toInt.toNat (250 - 1), p⟩ : Fin 250) = rowOf w := by
  subst h
  rfl

/-! ## The reference, stage by stage -/

section Stages
variable [Cert.ReferenceIdeal.Facts]
open Cert.ReferenceIdeal.Read

/-- The first wrapped index array is node_last_visit itself. -/
theorem v4_apply (x3 : IVec S1024x25 32) (hn : ∀ i, 0 ≤ (x3 i).toInt) (i : S1024x25.Idx) :
    val_main_v4 (F := Ideal) x3 i = x3 i := by
  rw [val_main_v4_apply, val_main_v1_apply, val_main_v3_apply, val_main_v0_apply, val_main_c_apply,
    val_main_v2_apply, val_main_c_0_apply]
  exact wrap_of_nonneg _ (hn i)

/-- So is the second. -/
theorem v11_apply (x3 : IVec S1024x25 32) (hn : ∀ i, 0 ≤ (x3 i).toInt) (i : S1024x25.Idx) :
    val_main_v11 (F := Ideal) x3 i = x3 i := by
  rw [val_main_v11_apply, val_main_v8_apply, val_main_v10_apply, val_main_v7_apply, val_main_c_1_apply,
    val_main_v9_apply, val_main_c_2_apply]
  exact wrap_of_nonneg _ (hn i)

/-- The start indices of the coordinates' gather, at (b, a, 0). -/
theorem v5_apply (x3 : IVec S1024x25 32) (hn : ∀ i, 0 ≤ (x3 i).toInt) (b : Fin 1024) (a : Fin 25) :
    val_main_v5 (F := Ideal) x3 (ix3 b a (0 : Fin 1)) = x3 (ix2 b a) := by
  rw [val_main_v5_apply, v4_apply x3 hn]
  congr 1
  funext d
  match d with
  | ⟨0, _⟩ => rfl
  | ⟨1, _⟩ => rfl

/-- The start indices of the patrol index's gather, at (b, a, 0). -/
theorem v12_apply (x3 : IVec S1024x25 32) (hn : ∀ i, 0 ≤ (x3 i).toInt) (b : Fin 1024) (a : Fin 25) :
    val_main_v12 (F := Ideal) x3 (ix3 b a (0 : Fin 1)) = x3 (ix2 b a) := by
  rw [val_main_v12_apply, v11_apply x3 hn]
  congr 1
  funext d
  match d with
  | ⟨0, _⟩ => rfl
  | ⟨1, _⟩ => rfl

/-- The gathered coordinates at (b, a, k): the k-th coordinate of the node (b, a) names. -/
theorem v6_apply (x1 : FVec Ideal S250x2 .f32) (x3 : IVec S1024x25 32) (hn : ∀ i, 0 ≤ (x3 i).toInt)
    (b : Fin 1024) (a : Fin 25) (k : Fin 2) :
    val_main_v6 (F := Ideal) x1 x3 (ix3 b a k) = x1 (ix2 (nodeRow x3 b a) k) := by
  unfold val_main_v6
  rw [show gather_S250x2_S1024x25x1_S1024x25x2_2_0_n_n_0_2_12
      = rowDims 250 2 1024 25 Facts₀.gather_S250x2_S1024x25x1_S1024x25x2_2_0_n_n_0_2_12_wf from rfl,
    gather_row_apply (by decide), row_eq (v5_apply x3 hn b a)]
  rfl

/-- The gathered patrol position at (b, a): the patrol index of the node (b, a) names. -/
theorem v13_apply (x3 : IVec S1024x25 32) (x4 : IVec S250 32) (hn : ∀ i, 0 ≤ (x3 i).toInt)
    (b : Fin 1024) (a : Fin 25) :
    val_main_v13 (F := Ideal) x3 x4 (ix2 b a) = x4 (ix1 (nodeRow x3 b a)) := by
  unfold val_main_v13
  rw [show gather_S250_S1024x25x1_S1024x25_n_0_n_n_0_2_1
      = takeDims 250 1024 25 Facts₀.gather_S250_S1024x25x1_S1024x25_n_0_n_n_0_2_1_wf from rfl,
    gather_take_apply (by decide)]
  have h12 : val_main_v12 (F := Ideal) x3 (takeIdx (ix2 b a)) = x3 (ix2 b a) := by
    rw [show takeIdx (ix2 b a) = ix3 b a (0 : Fin 1) from by
      funext d
      match d with
      | ⟨0, _⟩ => rfl
      | ⟨1, _⟩ => rfl
      | ⟨2, _⟩ => rfl]
    exact v12_apply x3 hn b a
  rw [row_eq h12]
  rfl

/-- The third wrapped index array is the gathered patrol position itself. -/
theorem v18_apply (x3 : IVec S1024x25 32) (x4 : IVec S250 32) (hn : ∀ i, 0 ≤ (x3 i).toInt)
    (hp : ∀ i, 0 ≤ (x4 i).toInt) (b : Fin 1024) (a : Fin 25) :
    val_main_v18 (F := Ideal) x3 x4 (ix2 b a) = x4 (ix1 (nodeRow x3 b a)) := by
  rw [val_main_v18_apply, val_main_v15_apply, val_main_v17_apply, val_main_v14_apply, val_main_c_3_apply,
    val_main_v16_apply, val_main_c_4_apply, v13_apply x3 x4 hn]
  exact wrap_of_nonneg _ (hp _)

/-- The start indices of the adjacency rows' gather, at (b, a, 0). -/
theorem v19_apply (x3 : IVec S1024x25 32) (x4 : IVec S250 32) (hn : ∀ i, 0 ≤ (x3 i).toInt)
    (hp : ∀ i, 0 ≤ (x4 i).toInt) (b : Fin 1024) (a : Fin 25) :
    val_main_v19 (F := Ideal) x3 x4 (ix3 b a (0 : Fin 1)) = x4 (ix1 (nodeRow x3 b a)) := by
  rw [val_main_v19_apply,
    show idx_main_v19 (ix3 b a (0 : Fin 1)) = ix2 b a from by
      funext d
      match d with
      | ⟨0, _⟩ => rfl
      | ⟨1, _⟩ => rfl,
    v18_apply x3 x4 hn hp]

/-- The gathered adjacency row at (b, a, j): entry j of the row the patrol position names. -/
theorem v20_apply (x2 : FVec Ideal S250x250 .f32) (x3 : IVec S1024x25 32) (x4 : IVec S250 32)
    (hn : ∀ i, 0 ≤ (x3 i).toInt) (hp : ∀ i, 0 ≤ (x4 i).toInt) (b : Fin 1024) (a : Fin 25) (j : Fin 250) :
    val_main_v20 (F := Ideal) x2 x3 x4 (ix3 b a j) = x2 (ix2 (patrolRow x3 x4 b a) j) := by
  unfold val_main_v20
  rw [show gather_S250x250_S1024x25x1_S1024x25x250_2_0_n_n_0_2_1250
      = rowDims 250 250 1024 25 Facts₀.gather_S250x250_S1024x25x1_S1024x25x250_2_0_n_n_0_2_1250_wf from rfl,
    gather_row_apply (by decide), row_eq (v19_apply x3 x4 hn hp b a)]
  rfl

/-- The coordinates repeated along j, at (b, a, j, k). -/
theorem v22_apply (x1 : FVec Ideal S250x2 .f32) (x3 : IVec S1024x25 32) (hn : ∀ i, 0 ≤ (x3 i).toInt)
    (b : Fin 1024) (a : Fin 25) (j : Fin 250) (k : Fin 2) :
    val_main_v22 (F := Ideal) x1 x3 (ix4 b a j k) = x1 (ix2 (nodeRow x3 b a) k) := by
  rw [val_main_v22_apply, val_main_v21_apply,
    show idx_main_v21 (idx_main_v22 (ix4 b a j k)) = ix3 b a k from by
      funext d
      match d with
      | ⟨0, _⟩ => rfl
      | ⟨1, _⟩ => rfl
      | ⟨2, _⟩ => rfl,
    v6_apply x1 x3 hn]

/-- The adjacency row as a one-channel array, at (b, a, j, 0). -/
theorem v24_apply (x2 : FVec Ideal S250x250 .f32) (x3 : IVec S1024x25 32) (x4 : IVec S250 32)
    (hn : ∀ i, 0 ≤ (x3 i).toInt) (hp : ∀ i, 0 ≤ (x4 i).toInt) (b : Fin 1024) (a : Fin 25) (j : Fin 250)
    (c : Fin 1) :
    val_main_v24 (F := Ideal) x2 x3 x4 (ix4 b a j c) = x2 (ix2 (patrolRow x3 x4 b a) j) := by
  rw [val_main_v24_apply,
    show idx_main_v24 (ix4 b a j c) = ix3 b a j from by
      funext d
      match d with
      | ⟨0, _⟩ => rfl
      | ⟨1, _⟩ => rfl
      | ⟨2, _⟩ => rfl,
    v20_apply x2 x3 x4 hn hp]

/-- The first concatenation below channel 3: the state. -/
theorem v23_apply_state (x0 : FVec Ideal S1024x25x250x3 .f32) (x1 : FVec Ideal S250x2 .f32) (x3 : IVec S1024x25 32)
    (b : Fin 1024) (a : Fin 25) (j : Fin 250) (c : Fin 5) (h : c.val < 3) :
    val_main_v23 (F := Ideal) x0 x1 x3 (ix4 b a j c) = x0 (ix4 b a j ⟨c.val, h⟩) := by
  unfold val_main_v23
  exact concatenate_pair_apply_left (t := S1024x25x250x5) (s₁ := S1024x25x250x3) (s₂ := S1024x25x250x2) 3 _ _ _
    (ix4 b a j c) rfl (ix4 b a j ⟨c.val, h⟩) (fun d =>
    match d with
    | ⟨0, _⟩ => rfl
    | ⟨1, _⟩ => rfl
    | ⟨2, _⟩ => rfl
    | ⟨3, _⟩ => rfl)

/-- The first concatenation at channels 3 and 4: the node's coordinates. -/
theorem v23_apply_coords (x0 : FVec Ideal S1024x25x250x3 .f32) (x1 : FVec Ideal S250x2 .f32) (x3 : IVec S1024x25 32)
    (hn : ∀ i, 0 ≤ (x3 i).toInt) (b : Fin 1024) (a : Fin 25) (j : Fin 250) (c : Fin 5) (h : 3 ≤ c.val) :
    val_main_v23 (F := Ideal) x0 x1 x3 (ix4 b a j c)
      = x1 (ix2 (nodeRow x3 b a) ⟨c.val - 3, by have := c.isLt; omega⟩) := by
  unfold val_main_v23
  rw [concatenate_pair_apply_right (t := S1024x25x250x5) (s₁ := S1024x25x250x3) (s₂ := S1024x25x250x2) 3 _ _ _
    (ix4 b a j c) rfl rfl
    (ix4 b a j (⟨c.val - 3, by have := c.isLt; omega⟩ : Fin 2))
    (fun d hd =>
      match d, hd with
      | ⟨0, _⟩, _ => rfl
      | ⟨1, _⟩, _ => rfl
      | ⟨2, _⟩, _ => rfl
      | ⟨3, _⟩, hd => absurd rfl hd)
    (by show c.val - 3 + 3 = c.val; omega)]
  exact v22_apply x1 x3 hn b a j _

end Stages

/-- The reference's last stage is the specification. -/
theorem val_eq_G [Cert.ReferenceIdeal.Facts]
    (x0 : FVec Ideal S1024x25x250x3 .f32) (x1 : FVec Ideal S250x2 .f32) (x2 : FVec Ideal S250x250 .f32)
    (x3 : IVec S1024x25 32) (x4 : IVec S250 32)
    (hn : ∀ i, 0 ≤ (x3 i).toInt) (hp : ∀ i, 0 ≤ (x4 i).toInt) :
    Cert.ReferenceIdeal.Read.val_main_v25 (F := Ideal) x0 x1 x2 x3 x4 = Cert.GatherConcat.G x0 x1 x2 x3 x4 := by
  funext i
  obtain ⟨b, a, j, ch, rfl⟩ : ∃ b a j ch, i = ix4 b a j ch := ⟨i 0, i 1, i 2, i 3, eq_ix4 i⟩
  unfold Cert.ReferenceIdeal.Read.val_main_v25
  by_cases h5 : ch.val < 5
  · -- channels 0 to 4 come from the first concatenation
    rw [concatenate_pair_apply_left (t := S1024x25x250x6) (s₁ := S1024x25x250x5) (s₂ := S1024x25x250x1) 3 _ _ _
      (ix4 b a j ch) rfl (ix4 b a j (⟨ch.val, h5⟩ : Fin 5)) (fun d =>
        match d with
        | ⟨0, _⟩ => rfl
        | ⟨1, _⟩ => rfl
        | ⟨2, _⟩ => rfl
        | ⟨3, _⟩ => rfl)]
    by_cases h3 : ch.val < 3
    · rw [v23_apply_state x0 x1 x3 b a j ⟨ch.val, h5⟩ h3, G_state _ _ _ _ _ b a j ch h3]
    · rw [v23_apply_coords x0 x1 x3 hn b a j ⟨ch.val, h5⟩ (Nat.le_of_not_lt h3),
        G_coords _ _ _ _ _ b a j ch (Nat.le_of_not_lt h3) h5]
  · -- channel 5 is the adjacency row
    have h5' : ch.val = 5 := by have := ch.isLt; omega
    rw [concatenate_pair_apply_right (t := S1024x25x250x6) (s₁ := S1024x25x250x5) (s₂ := S1024x25x250x1) 3 _ _ _
      (ix4 b a j ch) rfl rfl (ix4 b a j (0 : Fin 1))
      (fun d hd =>
        match d, hd with
        | ⟨0, _⟩, _ => rfl
        | ⟨1, _⟩, _ => rfl
        | ⟨2, _⟩, _ => rfl
        | ⟨3, _⟩, hd => absurd rfl hd)
      (by show 0 + 5 = ch.val; omega),
      v24_apply x2 x3 x4 hn hp, G_adj _ _ _ _ _ b a j ch h5']

end Cert.GatherConcat.Ref

end
-- ==== Proof.LibPlainDot.lean ====
/- The plain product of an M×K matrix by a K×N matrix, read at an index of the result, at the ideal (extended-real)
   values: entry (r, c) is the sum over the contracted coordinate k of x[r, k] * w[k, c]. Stated for the reference's
   product with no accumulator and for the kernel's product accumulated into a zero array, which is the same sum
   because 0 + s = s. -/
import Idealize.ShloMosaic.Lib.StackMember

noncomputable section

open scoped BigOperators

namespace Cert.LibPlainDot

open Idealize.ShloMosaic

/-- The reference's plain product at an index: the sum over the contracted coordinate. -/
theorem dotGeneral_plain_apply (M K N : Nat) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral (DotDims.plain M K N) prec x w j = ∑ k : Fin K, x (ValueIdx.ix2 (j 0) k) * w (ValueIdx.ix2 k (j 1)) := by
  have e := StackMember.dotGeneral_plain_apply (m := M) (n := N) (k := K) prec x w (j 0) (j 1)
  exact (congrArg (Host.dotGeneral (DotDims.plain M K N) prec x w) (ValueIdx.eq_ix2 j)).trans e

/-- The kernel's product into a zero accumulator at an index: the same sum. -/
theorem matmul_zero_plain_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, x (ValueIdx.ix2 (j 0) k) * w (ValueIdx.ix2 k (j 1)) := by
  subst hd
  rw [matmul_zero_eq_dotGeneral]
  exact dotGeneral_plain_apply M K N prec x w j

end Cert.LibPlainDot

end
-- ==== Proof.KernelPayload.lean ====
/-
  The kernel body's one stored value, read at an index of the [4, 25, 1500] block it fills.

  The body turns each of the block's 100 (batch, agent) rows into a row of 250 indicators (is the row's clamped
  index word equal to the lane number?), multiplies the indicator matrix by a table, and so picks one table row per
  (batch, agent): a row of nodes_coords through the first index block, a row of adj through the second. It then lays
  state's three channels, the two coordinates (repeated along the node axis) and the adjacency entry side by side as
  six channels and flattens (node, channel) to one axis of 1500. So at flat position 6 j + ch the block holds
    the state block's entry at flat position 3 j + ch   for ch < 3,
    the coordinates row's entry ch - 3                  for ch = 3, 4,
    the adjacency row's entry j                         for ch = 5.
-/
import proofs.«412221_j40123584479691_4_alg».proof.Proof.Gen.KernelIdeal.Skeleton
import proofs.«412221_j40123584479691_4_alg».proof.Proof.Spec
import proofs.«412221_j40123584479691_4_alg».proof.Proof.LibPlainDot
import Idealize.ShloMosaic.Lib.ValueIdx
import Idealize.ShloMosaic.Lib.Pipeline.Value
import Idealize.ShloMosaic.PureOps.Ideal.Laws

noncomputable section

open scoped BigOperators

namespace Cert.GatherConcat.Kern

open Idealize.ShloMosaic Idealize.ShloMosaic.ValueIdx Cert.KernelIdeal Cert.KernelIdeal.Gen

/-- Row r of the 100 flattened (batch, agent) rows is (r / 25, r % 25). -/
theorem rowSplit (r : Fin 100) : r.val / 25 < 4 ∧ r.val % 25 < 25 := by
  have := r.isLt
  omega

/-- The index words, one per (batch, agent) row, spread over the 250 lanes: entry (r, k) is the word of row r. -/
theorem lanes_apply (x : IVec S4x25x1 32) (r : Fin 100) (k : Fin 250) :
    broadcastTo S100x250 (shapeCast S100x1 (shapeCast S4x25x1 x shapeCasts_S4x25x1_S4x25x1) shapeCasts_S4x25x1_S100x1)
      broadcasts_S100x1_S100x250 (ix2 r k)
      = x (ix3 ⟨r.val / 25, (rowSplit r).1⟩ ⟨r.val % 25, (rowSplit r).2⟩ (0 : Fin 1)) := by
  rw [shapeCast_self]
  refine (broadcastTo_apply _ broadcasts_S100x1_S100x250 (ix2 r k) (ix2 r (0 : Fin 1)) (fun a => ?_)).trans ?_
  · match a with
    | ⟨0, _⟩ => show r.val = if (100 : Nat) = 1 then 0 else r.val; rw [if_neg (by decide)]
    | ⟨1, _⟩ => show (0 : Nat) = if (1 : Nat) = 1 then 0 else k.val; rw [if_pos rfl]
  · refine shapeCast_apply _ shapeCasts_S4x25x1_S100x1 (ix2 r (0 : Fin 1)) _ ?_
    rw [Shape.rowMajor_val_two, Shape.rowMajor_val_three]
    show (r.val / 25 * 25 + r.val % 25) * 1 + 0 = r.val * 1 + 0
    have := Nat.div_add_mod r.val 25
    omega

/-- The row's index word, for a block of index words. -/
abbrev wordOf (x : IVec S4x25x1 32) (r : Fin 100) : BitVec 32 :=
  x (ix3 ⟨r.val / 25, (rowSplit r).1⟩ ⟨r.val % 25, (rowSplit r).2⟩ (0 : Fin 1))

/-- The indicator matrix: entry (r, k) is 1 when row r's word is the lane number k and 0 otherwise. -/
theorem hot_apply (x : IVec S4x25x1 32) (hx : ∀ y, (x y).toNat < 250) (r : Fin 100) (k : Fin 250) :
    (sitofp .f32 (extui 32 (cmpi .eq
        (broadcastTo S100x250 (shapeCast S100x1 (shapeCast S4x25x1 x shapeCasts_S4x25x1_S4x25x1) shapeCasts_S4x25x1_S100x1)
          broadcasts_S100x1_S100x250)
        (iota .tc S100x250 32 [1] iota_S100x250_d1_w32)) natLt_1_32) : FVec Ideal S100x250 .f32) (ix2 r k)
      = if k = (⟨(wordOf x r).toNat, hx _⟩ : Fin 250) then (1 : EReal) else 0 := by
  show (((BitVec.zeroExtend 32 (IntOp.cmpi .eq
      (broadcastTo S100x250 (shapeCast S100x1 (shapeCast S4x25x1 x shapeCasts_S4x25x1_S4x25x1) shapeCasts_S4x25x1_S100x1)
        broadcasts_S100x1_S100x250 (ix2 r k))
      (iota .tc S100x250 32 [1] iota_S100x250_d1_w32 (ix2 r k)))).toInt : ℝ) : EReal) = _
  rw [lanes_apply, iota_single_apply]
  exact Cert.GatherConcat.hot_eq (wordOf x r) (hx _) k

/-- A table of 250 rows multiplied by the indicator matrix: row r of the product is the table row that row r's word
    names. -/
theorem pick_apply {D : Nat} (d : DotDims S100x250 ⟨2, ![250, D]⟩ ⟨2, ![100, D]⟩) (hd : d = DotDims.plain 100 250 D)
    (x : IVec S4x25x1 32) (hx : ∀ y, (x y).toNat < 250) (tbl : FVec Ideal ⟨2, ![250, D]⟩ .f32) (r : Fin 100) (cc : Fin D) :
    matmul d (some .fp32)
        (sitofp .f32 (extui 32 (cmpi .eq
          (broadcastTo S100x250 (shapeCast S100x1 (shapeCast S4x25x1 x shapeCasts_S4x25x1_S4x25x1) shapeCasts_S4x25x1_S100x1)
            broadcasts_S100x1_S100x250)
          (iota .tc S100x250 32 [1] iota_S100x250_d1_w32)) natLt_1_32) : FVec Ideal S100x250 .f32)
        tbl (constant ⟨2, ![100, D]⟩ .f32 0x00000000#32) (ix2 r cc)
      = tbl (ix2 (⟨(wordOf x r).toNat, hx _⟩ : Fin 250) cc) := by
  refine (Cert.LibPlainDot.matmul_zero_plain_apply d hd (some .fp32) _ tbl (ix2 r cc)).trans ?_
  have e : ∀ k : Fin 250,
      (sitofp .f32 (extui 32 (cmpi .eq
          (broadcastTo S100x250 (shapeCast S100x1 (shapeCast S4x25x1 x shapeCasts_S4x25x1_S4x25x1) shapeCasts_S4x25x1_S100x1)
            broadcasts_S100x1_S100x250)
          (iota .tc S100x250 32 [1] iota_S100x250_d1_w32)) natLt_1_32) : FVec Ideal S100x250 .f32) (ix2 r k)
        * tbl (ix2 k cc)
      = (if k = (⟨(wordOf x r).toNat, hx _⟩ : Fin 250) then (1 : EReal) else 0) * tbl (ix2 k cc) := fun k => by
    rw [hot_apply x hx r k]
  exact (Finset.sum_congr rfl fun k _ => e k).trans
    (Cert.GatherConcat.sum_indicator_mul (⟨(wordOf x r).toNat, hx _⟩ : Fin 250) fun k => tbl (ix2 k cc))

/-! ## The six channels -/

/-- The indicator matrix of a block of index words. -/
abbrev hotOf (x : IVec S4x25x1 32) : FVec Ideal S100x250 .f32 :=
  sitofp .f32 (extui 32 (cmpi .eq
    (broadcastTo S100x250 (shapeCast S100x1 (shapeCast S4x25x1 x shapeCasts_S4x25x1_S4x25x1) shapeCasts_S4x25x1_S100x1)
      broadcasts_S100x1_S100x250)
    (iota .tc S100x250 32 [1] iota_S100x250_d1_w32)) natLt_1_32)

/-- The coordinates picked per (batch, agent) row. -/
abbrev coordRows (x1 : IVec S4x25x1 32) (x3 : FVec Ideal S250x2 .f32) : FVec Ideal S100x2 .f32 :=
  matmul dot_S100x250_S250x2_S100x2_1_0_0_1_n_n (some .fp32) (hotOf x1) x3 (constant S100x2 .f32 0x00000000#32)

/-- The adjacency rows picked per (batch, agent) row. -/
abbrev adjRows (x2 : IVec S4x25x1 32) (x4 : FVec Ideal S250x250 .f32) : FVec Ideal S100x250 .f32 :=
  matmul dot_S100x250_S250x250_S100x250_1_0_0_1_n_n (some .fp32) (hotOf x2) x4 (constant S100x250 .f32 0x00000000#32)

/-- Channels 0 to 2: the state block with its flat axis split into (node, channel). -/
abbrev chState (x0 : FVec Ideal S4x25x750 .f32) : FVec Ideal S4x25x250x3 .f32 :=
  shapeCast S4x25x250x3 (shapeCast S4x25x750 x0 shapeCasts_S4x25x750_S4x25x750) shapeCasts_S4x25x750_S4x25x250x3

/-- Channels 3 and 4: the picked coordinates, repeated along the node axis. -/
abbrev chCoords (x1 : IVec S4x25x1 32) (x3 : FVec Ideal S250x2 .f32) : FVec Ideal S4x25x250x2 .f32 :=
  broadcastTo S4x25x250x2
    (shapeCast S4x25x1x2 (shapeCast S4x25x1x2 (shapeCast S4x25x2 (coordRows x1 x3) shapeCasts_S100x2_S4x25x2)
      shapeCasts_S4x25x2_S4x25x1x2) shapeCasts_S4x25x1x2_S4x25x1x2)
    broadcasts_S4x25x1x2_S4x25x250x2

/-- Channel 5: the picked adjacency rows. -/
abbrev chAdj (x2 : IVec S4x25x1 32) (x4 : FVec Ideal S250x250 .f32) : FVec Ideal S4x25x250x1 .f32 :=
  shapeCast S4x25x250x1 (shapeCast S4x25x250 (adjRows x2 x4) shapeCasts_S100x250_S4x25x250) shapeCasts_S4x25x250_S4x25x250x1

/-- The stored value is the six channels side by side, (node, channel) flattened. -/
theorem pay_eq (x1 x2 : IVec S4x25x1 32) (x3 : FVec Ideal S250x2 .f32) (x4 : FVec Ideal S250x250 .f32)
    (x0 : FVec Ideal S4x25x750 .f32) :
    k0_pay1 (F := Ideal) x1 x2 x3 x4 x0
      = shapeCast S4x25x1500
          (concatenate S4x25x250x6 3 [⟨S4x25x250x3, chState x0⟩, ⟨S4x25x250x2, chCoords x1 x3⟩, ⟨S4x25x250x1, chAdj x2 x4⟩]
            concatenates_S4x25x250x3_S4x25x250x2_S4x25x250x1_S4x25x250x6_d3)
          shapeCasts_S4x25x250x6_S4x25x1500 := rfl

/-- The (batch, agent) row number of block coordinates (tb, a). -/
abbrev rowNo (tb : Fin 4) (a : Fin 25) : Fin 100 := ⟨tb.val * 25 + a.val, by have := tb.isLt; have := a.isLt; omega⟩

theorem chState_apply (x0 : FVec Ideal S4x25x750 .f32) (tb : Fin 4) (a : Fin 25) (j : Fin 250) (ch : Fin 3) :
    chState x0 (ix4 tb a j ch) = x0 (ix3 tb a ⟨3 * j.val + ch.val, by have := j.isLt; have := ch.isLt; omega⟩) := by
  unfold chState
  rw [shapeCast_self]
  refine shapeCast_apply _ shapeCasts_S4x25x750_S4x25x250x3 (ix4 tb a j ch) _ ?_
  rw [Shape.rowMajor_val_three, Shape.rowMajor_val_four]
  show (tb.val * 25 + a.val) * 750 + (3 * j.val + ch.val) = ((tb.val * 25 + a.val) * 250 + j.val) * 3 + ch.val
  omega

theorem chCoords_apply (x1 : IVec S4x25x1 32) (x3 : FVec Ideal S250x2 .f32) (tb : Fin 4) (a : Fin 25) (j : Fin 250)
    (cc : Fin 2) : chCoords x1 x3 (ix4 tb a j cc) = coordRows x1 x3 (ix2 (rowNo tb a) cc) := by
  unfold chCoords
  rw [shapeCast_self]
  refine (broadcastTo_apply _ broadcasts_S4x25x1x2_S4x25x250x2 (ix4 tb a j cc) (ix4 tb a (0 : Fin 1) cc) (fun b => ?_)).trans ?_
  · match b with
    | ⟨0, _⟩ => show tb.val = if (4 : Nat) = 1 then 0 else tb.val; rw [if_neg (by decide)]
    | ⟨1, _⟩ => show a.val = if (25 : Nat) = 1 then 0 else a.val; rw [if_neg (by decide)]
    | ⟨2, _⟩ => show (0 : Nat) = if (1 : Nat) = 1 then 0 else j.val; rw [if_pos rfl]
    | ⟨3, _⟩ => show cc.val = if (2 : Nat) = 1 then 0 else cc.val; rw [if_neg (by decide)]
  · refine (shapeCast_apply _ shapeCasts_S4x25x2_S4x25x1x2 (ix4 tb a (0 : Fin 1) cc) (ix3 tb a cc) ?_).trans ?_
    · rw [Shape.rowMajor_val_three, Shape.rowMajor_val_four]
      show (tb.val * 25 + a.val) * 2 + cc.val = ((tb.val * 25 + a.val) * 1 + 0) * 2 + cc.val
      omega
    · refine shapeCast_apply _ shapeCasts_S100x2_S4x25x2 (ix3 tb a cc) (ix2 (rowNo tb a) cc) ?_
      rw [Shape.rowMajor_val_two, Shape.rowMajor_val_three]
      show (tb.val * 25 + a.val) * 2 + cc.val = (tb.val * 25 + a.val) * 2 + cc.val
      rfl

theorem chAdj_apply (x2 : IVec S4x25x1 32) (x4 : FVec Ideal S250x250 .f32) (tb : Fin 4) (a : Fin 25) (j : Fin 250) :
    chAdj x2 x4 (ix4 tb a j (0 : Fin 1)) = adjRows x2 x4 (ix2 (rowNo tb a) j) := by
  unfold chAdj
  refine (shapeCast_apply _ shapeCasts_S4x25x250_S4x25x250x1 (ix4 tb a j (0 : Fin 1)) (ix3 tb a j) ?_).trans ?_
  · rw [Shape.rowMajor_val_three, Shape.rowMajor_val_four]
    show (tb.val * 25 + a.val) * 250 + j.val = ((tb.val * 25 + a.val) * 250 + j.val) * 1 + 0
    omega
  · refine shapeCast_apply _ shapeCasts_S100x250_S4x25x250 (ix3 tb a j) (ix2 (rowNo tb a) j) ?_
    rw [Shape.rowMajor_val_two, Shape.rowMajor_val_three]
    show (tb.val * 25 + a.val) * 250 + j.val = (tb.val * 25 + a.val) * 250 + j.val
    rfl

/-! ## The stored value at flat position 6 j + ch -/

/-- Flat position 6 j + ch of the 1500 axis. -/
abbrev flat6 (j : Fin 250) (ch : Fin 6) : Fin 1500 := ⟨6 * j.val + ch.val, by have := j.isLt; have := ch.isLt; omega⟩

/-- The six channels side by side. -/
abbrev sixOf (x1 x2 : IVec S4x25x1 32) (x3 : FVec Ideal S250x2 .f32) (x4 : FVec Ideal S250x250 .f32)
    (x0 : FVec Ideal S4x25x750 .f32) : FVec Ideal S4x25x250x6 .f32 :=
  concatenate S4x25x250x6 3 [⟨S4x25x250x3, chState x0⟩, ⟨S4x25x250x2, chCoords x1 x3⟩, ⟨S4x25x250x1, chAdj x2 x4⟩]
    concatenates_S4x25x250x3_S4x25x250x2_S4x25x250x1_S4x25x250x6_d3

theorem pay_flat (x1 x2 : IVec S4x25x1 32) (x3 : FVec Ideal S250x2 .f32) (x4 : FVec Ideal S250x250 .f32)
    (x0 : FVec Ideal S4x25x750 .f32) (tb : Fin 4) (a : Fin 25) (j : Fin 250) (ch : Fin 6) :
    k0_pay1 (F := Ideal) x1 x2 x3 x4 x0 (ix3 tb a (flat6 j ch)) = sixOf x1 x2 x3 x4 x0 (ix4 tb a j ch) := by
  rw [pay_eq]
  refine shapeCast_apply _ shapeCasts_S4x25x250x6_S4x25x1500 (ix3 tb a (flat6 j ch)) (ix4 tb a j ch) ?_
  rw [Shape.rowMajor_val_three, Shape.rowMajor_val_four]
  show ((tb.val * 25 + a.val) * 250 + j.val) * 6 + ch.val = (tb.val * 25 + a.val) * 1500 + (6 * j.val + ch.val)
  omega

theorem six_state (x1 x2 : IVec S4x25x1 32) (x3 : FVec Ideal S250x2 .f32) (x4 : FVec Ideal S250x250 .f32)
    (x0 : FVec Ideal S4x25x750 .f32) (tb : Fin 4) (a : Fin 25) (j : Fin 250) (ch : Fin 6) (h : ch.val < 3) :
    sixOf x1 x2 x3 x4 x0 (ix4 tb a j ch) = chState x0 (ix4 tb a j ⟨ch.val, h⟩) := by
  refine concatenate_apply_piece (t := S4x25x250x6) (3 : Fin 4) [⟨S4x25x250x3, chState x0⟩, ⟨S4x25x250x2, chCoords x1 x3⟩, ⟨S4x25x250x1, chAdj x2 x4⟩]
    concatenates_S4x25x250x3_S4x25x250x2_S4x25x250x1_S4x25x250x6_d3 (ix4 tb a j ch) 0 (by show 0 < 3; omega) S4x25x250x3 (chState x0) rfl rfl 0 rfl
    (ix4 tb a j ⟨ch.val, h⟩) (fun b hb => ?_) ?_
  · match b with
    | ⟨0, _⟩ => rfl
    | ⟨1, _⟩ => rfl
    | ⟨2, _⟩ => rfl
    | ⟨3, _⟩ => exact absurd rfl hb
  · show 0 + ch.val = ch.val
    omega

theorem six_coords (x1 x2 : IVec S4x25x1 32) (x3 : FVec Ideal S250x2 .f32) (x4 : FVec Ideal S250x250 .f32)
    (x0 : FVec Ideal S4x25x750 .f32) (tb : Fin 4) (a : Fin 25) (j : Fin 250) (ch : Fin 6) (h3 : 3 ≤ ch.val) (h5 : ch.val < 5) :
    sixOf x1 x2 x3 x4 x0 (ix4 tb a j ch) = chCoords x1 x3 (ix4 tb a j ⟨ch.val - 3, by omega⟩) := by
  refine concatenate_apply_piece (t := S4x25x250x6) (3 : Fin 4) [⟨S4x25x250x3, chState x0⟩, ⟨S4x25x250x2, chCoords x1 x3⟩, ⟨S4x25x250x1, chAdj x2 x4⟩]
    concatenates_S4x25x250x3_S4x25x250x2_S4x25x250x1_S4x25x250x6_d3 (ix4 tb a j ch) 1 (by show 1 < 3; omega) S4x25x250x2 (chCoords x1 x3) rfl rfl 3 rfl
    (ix4 tb a j ⟨ch.val - 3, by omega⟩) (fun b hb => ?_) ?_
  · match b with
    | ⟨0, _⟩ => rfl
    | ⟨1, _⟩ => rfl
    | ⟨2, _⟩ => rfl
    | ⟨3, _⟩ => exact absurd rfl hb
  · show 3 + (ch.val - 3) = ch.val
    omega

theorem six_adj (x1 x2 : IVec S4x25x1 32) (x3 : FVec Ideal S250x2 .f32) (x4 : FVec Ideal S250x250 .f32)
    (x0 : FVec Ideal S4x25x750 .f32) (tb : Fin 4) (a : Fin 25) (j : Fin 250) (ch : Fin 6) (h5 : ch.val = 5) :
    sixOf x1 x2 x3 x4 x0 (ix4 tb a j ch) = chAdj x2 x4 (ix4 tb a j (0 : Fin 1)) := by
  refine concatenate_apply_piece (t := S4x25x250x6) (3 : Fin 4) [⟨S4x25x250x3, chState x0⟩, ⟨S4x25x250x2, chCoords x1 x3⟩, ⟨S4x25x250x1, chAdj x2 x4⟩]
    concatenates_S4x25x250x3_S4x25x250x2_S4x25x250x1_S4x25x250x6_d3 (ix4 tb a j ch) 2 (by show 2 < 3; omega) S4x25x250x1 (chAdj x2 x4) rfl rfl 5 rfl
    (ix4 tb a j (0 : Fin 1)) (fun b hb => ?_) ?_
  · match b with
    | ⟨0, _⟩ => rfl
    | ⟨1, _⟩ => rfl
    | ⟨2, _⟩ => rfl
    | ⟨3, _⟩ => exact absurd rfl hb
  · show 5 + 0 = ch.val
    omega

/-! ## The three statements the block proof uses -/

/-- Channels 0 to 2 copy the state block. -/
theorem pay_state (x1 x2 : IVec S4x25x1 32) (x3 : FVec Ideal S250x2 .f32) (x4 : FVec Ideal S250x250 .f32)
    (x0 : FVec Ideal S4x25x750 .f32) (tb : Fin 4) (a : Fin 25) (j : Fin 250) (ch : Fin 6) (h : ch.val < 3) :
    k0_pay1 (F := Ideal) x1 x2 x3 x4 x0 (ix3 tb a (flat6 j ch))
      = x0 (ix3 tb a ⟨3 * j.val + ch.val, by have := j.isLt; omega⟩) := by
  rw [pay_flat, six_state x1 x2 x3 x4 x0 tb a j ch h]
  exact chState_apply x0 tb a j ⟨ch.val, h⟩

/-- Channels 3 and 4 are the coordinates row the first index word names. -/
theorem pay_coords (x1 x2 : IVec S4x25x1 32) (x3 : FVec Ideal S250x2 .f32) (x4 : FVec Ideal S250x250 .f32)
    (x0 : FVec Ideal S4x25x750 .f32) (h1 : ∀ y, (x1 y).toNat < 250) (tb : Fin 4) (a : Fin 25) (j : Fin 250) (ch : Fin 6)
    (h3 : 3 ≤ ch.val) (h5 : ch.val < 5) :
    k0_pay1 (F := Ideal) x1 x2 x3 x4 x0 (ix3 tb a (flat6 j ch))
      = x3 (ix2 (⟨(wordOf x1 (rowNo tb a)).toNat, h1 _⟩ : Fin 250) ⟨ch.val - 3, by omega⟩) := by
  rw [pay_flat, six_coords x1 x2 x3 x4 x0 tb a j ch h3 h5, chCoords_apply]
  exact pick_apply dot_S100x250_S250x2_S100x2_1_0_0_1_n_n rfl x1 h1 x3 (rowNo tb a) ⟨ch.val - 3, by omega⟩

/-- Channel 5 is the adjacency row the second index word names. -/
theorem pay_adj (x1 x2 : IVec S4x25x1 32) (x3 : FVec Ideal S250x2 .f32) (x4 : FVec Ideal S250x250 .f32)
    (x0 : FVec Ideal S4x25x750 .f32) (h2 : ∀ y, (x2 y).toNat < 250) (tb : Fin 4) (a : Fin 25) (j : Fin 250) (ch : Fin 6)
    (h5 : ch.val = 5) :
    k0_pay1 (F := Ideal) x1 x2 x3 x4 x0 (ix3 tb a (flat6 j ch))
      = x4 (ix2 (⟨(wordOf x2 (rowNo tb a)).toNat, h2 _⟩ : Fin 250) j) := by
  rw [pay_flat, six_adj x1 x2 x3 x4 x0 tb a j ch h5, chAdj_apply]
  exact pick_apply dot_S100x250_S250x250_S100x250_1_0_0_1_n_n rfl x2 h2 x4 (rowNo tb a) j

/-- The row's word is the block's entry at (tb, a, 0). -/
theorem wordOf_rowNo (x : IVec S4x25x1 32) (tb : Fin 4) (a : Fin 25) : wordOf x (rowNo tb a) = x (ix3 tb a (0 : Fin 1)) := by
  have htb := tb.isLt
  have ha := a.isLt
  have e1 : (tb.val * 25 + a.val) / 25 = tb.val := by omega
  have e2 : (tb.val * 25 + a.val) % 25 = a.val := by omega
  show x (ix3 ⟨(tb.val * 25 + a.val) / 25, _⟩ ⟨(tb.val * 25 + a.val) % 25, _⟩ (0 : Fin 1)) = _
  congr 1
  funext d
  match d with
  | ⟨0, _⟩ => exact Fin.ext e1
  | ⟨1, _⟩ => exact Fin.ext e2
  | ⟨2, _⟩ => rfl

end Cert.GatherConcat.Kern

end
-- ==== Proof.KernelHost.lean ====
/-
  What the kernel's launch finds in the three arrays the host prepares before it, read at an index:
  the state flattened from [1024, 25, 250, 3] to [1024, 25, 750]; node_last_visit clamped into [0, 249]; and the
  patrol position patrol_index[node_last_visit] clamped the same way (both as [1024, 25, 1] columns).
-/
import proofs.«412221_j40123584479691_4_alg».proof.Proof.Gen.KernelIdeal.Frame
import proofs.«412221_j40123584479691_4_alg».proof.Proof.Spec
import Idealize.ShloMosaic.Lib.ValueIdx
import Idealize.ShloMosaic.Lib.Affine
import Idealize.ShloMosaic.Lib.Pipeline.Value
import Idealize.ShloMosaic.Lib.StableHlo.Run

noncomputable section

namespace Cert.GatherConcat.Host

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The flattened state: entry (b, a, k) is state[b, a, k / 3, k % 3]. -/
theorem V_state (c : Dev nD) (b : Fin 1024) (a : Fin 25) (k : Fin 750) :
    (V m c main_v11 : S1024x25x750.Idx → EReal) (ix3 b a k)
      = (m ((c : Thread nD τ).loc main_arg0) : S1024x25x250x3.Idx → EReal)
          (ix4 b a ⟨k.val / 3, by have := k.isLt; omega⟩ ⟨k.val % 3, by omega⟩) := by
  have e : (V m c main_v11 : S1024x25x750.Idx → EReal)
      = shapeCast S1024x25x750 (m ((c : Thread nD τ).loc main_arg0) : S1024x25x250x3.Idx → EReal)
          shapeCasts_S1024x25x250x3_S1024x25x750 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  -- a reshape keeps the row-major position: ((b·25 + a)·250 + k/3)·3 + k%3 = (b·25 + a)·750 + k
  refine shapeCast_apply _ _ _ _ ?_
  show (S1024x25x250x3.rowMajor _).val = (S1024x25x750.rowMajor _).val
  rw [Shape.rowMajor_val_four, Shape.rowMajor_val_three]
  show ((b.val * 25 + a.val) * 250 + k.val / 3) * 3 + k.val % 3 = (b.val * 25 + a.val) * 750 + k.val
  omega

/-- The first index column: node_last_visit clamped at 0 from below and at 249 from above. -/
theorem V_nlv (c : Dev nD) (b : Fin 1024) (a : Fin 25) :
    (V m c main_v9 : S1024x25x1.Idx → BitVec 32) (ix3 b a (0 : Fin 1))
      = IntOp.minsi 249#32 (IntOp.maxsi 0#32 ((m ((c : Thread nD τ).loc main_arg3) : S1024x25.Idx → BitVec 32) (ix2 b a))) := by
  have e : (V m c main_v9 : S1024x25x1.Idx → BitVec 32)
      = shapeCast S1024x25x1
          (minsi (broadcastInDim S1024x25 ![] bcast_S_S1024x25 (constantI S_ 32 249#32))
            (maxsi (broadcastInDim S1024x25 ![] bcast_S_S1024x25 (constantI S_ 32 0#32))
              (m ((c : Thread nD τ).loc main_arg3) : S1024x25.Idx → BitVec 32)))
          shapeCasts_S1024x25_S1024x25x1 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  -- the trailing unit axis does not move the row-major position; the clamp is pointwise
  rw [e, shapeCast_apply _ _ _ (ix2 b a) ?hk]
  · rfl
  · rw [Shape.rowMajor_val_two, Shape.rowMajor_val_three]
    show b.val * 25 + a.val = (b.val * 25 + a.val) * 1 + 0
    omega

/-- The second index column: the patrol position of the node, clamped the same way. The node's row in patrol_index is
    the specification's rowOf of its word, the negative-index wrap never firing on a non-negative word. -/
theorem V_idx (c : Dev nD) (b : Fin 1024) (a : Fin 25)
    (hn : ∀ i, 0 ≤ ((m ((c : Thread nD τ).loc main_arg3) : S1024x25.Idx → BitVec 32) i).toInt) :
    (V m c main_v10 : S1024x25x1.Idx → BitVec 32) (ix3 b a (0 : Fin 1))
      = IntOp.minsi 249#32 (IntOp.maxsi 0#32 ((m ((c : Thread nD τ).loc main_arg4) : S250.Idx → BitVec 32)
          (ix1 (Cert.GatherConcat.rowOf ((m ((c : Thread nD τ).loc main_arg3) : S1024x25.Idx → BitVec 32) (ix2 b a)))))) := by
  have e : (V m c main_v10 : S1024x25x1.Idx → BitVec 32)
      = shapeCast S1024x25x1
          (minsi (broadcastInDim S1024x25 ![] bcast_S_S1024x25 (constantI S_ 32 249#32))
            (maxsi (broadcastInDim S1024x25 ![] bcast_S_S1024x25 (constantI S_ 32 0#32))
              (Host.gather gather_S250_S1024x25x1_S1024x25_n_0_n_n_0_2_1
                (m ((c : Thread nD τ).loc main_arg4) : S250.Idx → BitVec 32)
                (broadcastInDim S1024x25x1 ![0, 1] bcast_S1024x25_S1024x25x1_0_1
                  (select
                    (cmpi .slt (m ((c : Thread nD τ).loc main_arg3) : S1024x25.Idx → BitVec 32)
                      (broadcastInDim S1024x25 ![] bcast_S_S1024x25 (constantI S_ 32 0#32)))
                    (addi (m ((c : Thread nD τ).loc main_arg3) : S1024x25.Idx → BitVec 32)
                      (broadcastInDim S1024x25 ![] bcast_S_S1024x25 (constantI S_ 32 250#32)))
                    (m ((c : Thread nD τ).loc main_arg3) : S1024x25.Idx → BitVec 32))))))
          shapeCasts_S1024x25_S1024x25x1 := by
    suffices h : ∀ R : S1024x25x1.Idx → BitVec 32, R = _ → (V m c main_v10 : S1024x25x1.Idx → BitVec 32) = R from h _ rfl
    intro R hR
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rw [hR]
    rfl
  rw [e, shapeCast_apply _ _ _ (ix2 b a) ?hk]
  case hk =>
    rw [Shape.rowMajor_val_two, Shape.rowMajor_val_three]
    show b.val * 25 + a.val = (b.val * 25 + a.val) * 1 + 0
    omega
  -- the word the gather starts from: the wrap select(n < 0, n + 250, n) at (b, a), which is n on a non-negative n
  have hc : IntOp.cmpi .slt ((m ((c : Thread nD τ).loc main_arg3) : S1024x25.Idx → BitVec 32) (ix2 b a)) 0#32 = 0#1 := by
    apply eq_zero_of_ne_one
    have h0 : (0#32 : BitVec 32).toInt = 0 := by decide
    rw [IntOp.cmpi_slt, h0]
    exact not_lt.mpr (hn (ix2 b a))
  have hs : (broadcastInDim S1024x25x1 ![0, 1] bcast_S1024x25_S1024x25x1_0_1
        (select
          (cmpi .slt (m ((c : Thread nD τ).loc main_arg3) : S1024x25.Idx → BitVec 32)
            (broadcastInDim S1024x25 ![] bcast_S_S1024x25 (constantI S_ 32 0#32)))
          (addi (m ((c : Thread nD τ).loc main_arg3) : S1024x25.Idx → BitVec 32)
            (broadcastInDim S1024x25 ![] bcast_S_S1024x25 (constantI S_ 32 250#32)))
          (m ((c : Thread nD τ).loc main_arg3) : S1024x25.Idx → BitVec 32))) (takeIdx (ix2 b a))
      = (m ((c : Thread nD τ).loc main_arg3) : S1024x25.Idx → BitVec 32) (ix2 b a) := by
    rw [broadcastInDim_apply _ _ _ _ (ix2 b a) (fun d => by match d with | ⟨0, _⟩ => rfl | ⟨1, _⟩ => rfl)]
    show Scalar.select (IntOp.cmpi .slt ((m ((c : Thread nD τ).loc main_arg3) : S1024x25.Idx → BitVec 32) (ix2 b a)) 0#32) _ _ = _
    rw [hc, select_zero]
  -- the gather reads patrol_index at that word, read signed and clamped into [0, 249]: the specification's row
  show IntOp.minsi 249#32 (IntOp.maxsi 0#32
      (Host.gather (takeDims 250 1024 25 gather_S250_S1024x25x1_S1024x25_n_0_n_n_0_2_1_wf) _ _ (ix2 b a))) = _
  rw [gather_take_apply (by decide)]
  refine congrArg (fun r => IntOp.minsi 249#32 (IntOp.maxsi 0#32
    ((m ((c : Thread nD τ).loc main_arg4) : S250.Idx → BitVec 32) (ix1 r)))) (Fin.ext ?_)
  show min (BitVec.toInt _).toNat (250 - 1) = min (BitVec.toInt _).toNat 249
  rw [hs]

end Cert.GatherConcat.Host

end
-- ==== Proof.KernelValue.lean ====
/-
  The kernel's result array after the launch, as the specification's function of the argument arrays.

  Grid point t (of 256) handles batches 4 t .. 4 t + 3: every blocked window's block index is (t, 0, 0), the two tables
  are whole blocks. So block entry (tb, a, k) of a blocked window is array entry (4 t + tb, a, k), and what point t
  writes back is the block of the [1024, 25, 1500] array G3 whose entry (b, a, 6 j + ch) is the specification's
  entry (b, a, j, ch). The blocks of the 256 points cover the array, and the reshape after the launch splits the
  1500 axis back into (node, channel).
-/
import proofs.«412221_j40123584479691_4_alg».proof.Proof.Gen.KernelIdeal.Frame
import proofs.«412221_j40123584479691_4_alg».proof.Proof.KernelPayload
import proofs.«412221_j40123584479691_4_alg».proof.Proof.KernelHost
import Idealize.ShloMosaic.Lib.Pipeline.Value

set_option maxRecDepth 16384

noncomputable section

namespace Cert.GatherConcat.KVal

open Idealize.ShloMosaic Idealize.ShloMosaic.ValueIdx Idealize.ShloMosaic.TcCoe Idealize.SL.Sem
open Cert.KernelIdeal Cert.KernelIdeal.Gen Cert.GatherConcat
open Idealize.ShloMosaic.Pipeline (Dat)

variable (m : (ℓ : Loc nD τ sig) → Buf (Elt Ideal) ℓ) (ρ : Dev nD → PrngReg)

/-- The five argument arrays, at their literal types. -/
abbrev stateA (c : Dev nD) : S1024x25x250x3.Idx → EReal := m ((c : Thread nD τ).loc main_arg0)
abbrev coordsA (c : Dev nD) : S250x2.Idx → EReal := m ((c : Thread nD τ).loc main_arg1)
abbrev adjA (c : Dev nD) : S250x250.Idx → EReal := m ((c : Thread nD τ).loc main_arg2)
abbrev nlvA (c : Dev nD) : S1024x25.Idx → BitVec 32 := m ((c : Thread nD τ).loc main_arg3)
abbrev pidxA (c : Dev nD) : S250.Idx → BitVec 32 := m ((c : Thread nD τ).loc main_arg4)

/-- The launch's output array: the specification with (node, channel) flattened to one axis of 1500. -/
def G3 (c : Dev nD) : S1024x25x1500.Idx → EReal := fun i =>
  G (stateA m c) (coordsA m c) (adjA m c) (nlvA m c) (pidxA m c)
    (ix4 (i 0) (i 1) ⟨(i 2).val / 6, by have h : (i 2).val < 1500 := (i 2).isLt; omega⟩ ⟨(i 2).val % 6, by omega⟩)

/-- The printed index maps over the grid: blocked windows at block (t, 0, 0), the tables at (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The five input blocks at point t, at their literal types. -/
abbrev b0 (c : Dev nD) (t : Fin cfg0.N) : FVec Ideal S4x25x750 .f32 := iblk m c 0 t
abbrev b1 (c : Dev nD) (t : Fin cfg0.N) : IVec S4x25x1 32 := iblk m c 1 t
abbrev b2 (c : Dev nD) (t : Fin cfg0.N) : IVec S4x25x1 32 := iblk m c 2 t
abbrev b3 (c : Dev nD) (t : Fin cfg0.N) : FVec Ideal S250x2 .f32 := iblk m c 3 t
abbrev b4 (c : Dev nD) (t : Fin cfg0.N) : FVec Ideal S250x250 .f32 := iblk m c 4 t

/-- The batch that block row tb of point t is. -/
abbrev batchOf (t : Fin cfg0.N) (tb : Fin 4) : Fin 1024 := ⟨4 * t.val + tb.val, by have : t.val < 256 := t.isLt; have := tb.isLt; omega⟩

theorem b0_apply (c : Dev nD) (t : Fin cfg0.N) (tb : Fin 4) (a : Fin 25) (k : Fin 750) :
    b0 m c t (ix3 tb a k) = stateA m c (ix4 (batchOf t tb) a ⟨k.val / 3, by have := k.isLt; omega⟩ ⟨k.val % 3, by omega⟩) := by
  obtain ⟨e0, e1, e2, -⟩ := idx_facts t
  show (V m c main_v11 : S1024x25x750.Idx → EReal) (((cfg0.win 0).blk t).view.emb (ix3 tb a k)) = _
  have he : ((cfg0.win 0).blk t).view.emb (ix3 tb a k) = ix3 (batchOf t tb) a k := by
    funext d; apply Fin.ext
    match d with
    | ⟨0, _⟩ => show win0_0.index t (0 : Fin 3) * 4 + 1 * tb.val = 4 * t.val + tb.val; omega
    | ⟨1, _⟩ => show win0_0.index t (1 : Fin 3) * 25 + 1 * a.val = a.val; omega
    | ⟨2, _⟩ => show win0_0.index t (2 : Fin 3) * 750 + 1 * k.val = k.val; omega
  rw [he]
  exact Cert.GatherConcat.Host.V_state m c (batchOf t tb) a k

theorem b1_apply (c : Dev nD) (t : Fin cfg0.N) (tb : Fin 4) (a : Fin 25) :
    b1 m c t (ix3 tb a (0 : Fin 1)) = IntOp.minsi 249#32 (IntOp.maxsi 0#32 (nlvA m c (ix2 (batchOf t tb) a))) := by
  obtain ⟨-, -, -, e0, e1, e2, -⟩ := idx_facts t
  show (V m c main_v9 : S1024x25x1.Idx → BitVec 32) (((cfg0.win 1).blk t).view.emb (ix3 tb a (0 : Fin 1))) = _
  have he : ((cfg0.win 1).blk t).view.emb (ix3 tb a (0 : Fin 1)) = ix3 (batchOf t tb) a (0 : Fin 1) := by
    funext d; apply Fin.ext
    match d with
    | ⟨0, _⟩ => show win0_1.index t (0 : Fin 3) * 4 + 1 * tb.val = 4 * t.val + tb.val; omega
    | ⟨1, _⟩ => show win0_1.index t (1 : Fin 3) * 25 + 1 * a.val = a.val; omega
    | ⟨2, _⟩ => show win0_1.index t (2 : Fin 3) * 1 + 1 * 0 = 0; omega
  rw [he]
  exact Cert.GatherConcat.Host.V_nlv m c (batchOf t tb) a

theorem b2_apply (c : Dev nD) (hn : ∀ i, 0 ≤ (nlvA m c i).toInt) (t : Fin cfg0.N) (tb : Fin 4) (a : Fin 25) :
    b2 m c t (ix3 tb a (0 : Fin 1))
      = IntOp.minsi 249#32 (IntOp.maxsi 0#32 (pidxA m c (ix1 (rowOf (nlvA m c (ix2 (batchOf t tb) a)))))) := by
  obtain ⟨-, -, -, -, -, -, e0, e1, e2, -⟩ := idx_facts t
  show (V m c main_v10 : S1024x25x1.Idx → BitVec 32) (((cfg0.win 2).blk t).view.emb (ix3 tb a (0 : Fin 1))) = _
  have he : ((cfg0.win 2).blk t).view.emb (ix3 tb a (0 : Fin 1)) = ix3 (batchOf t tb) a (0 : Fin 1) := by
    funext d; apply Fin.ext
    match d with
    | ⟨0, _⟩ => show win0_2.index t (0 : Fin 3) * 4 + 1 * tb.val = 4 * t.val + tb.val; omega
    | ⟨1, _⟩ => show win0_2.index t (1 : Fin 3) * 25 + 1 * a.val = a.val; omega
    | ⟨2, _⟩ => show win0_2.index t (2 : Fin 3) * 1 + 1 * 0 = 0; omega
  rw [he]
  exact Cert.GatherConcat.Host.V_idx m c (batchOf t tb) a hn

/-- Every index of a [4, 25, 1] block is (tb, a, 0). -/
theorem col_idx (y : S4x25x1.Idx) :
    y = ix3 (⟨(y 0).val, (y 0).isLt⟩ : Fin 4) (⟨(y 1).val, (y 1).isLt⟩ : Fin 25) (0 : Fin 1) := by
  funext d
  match d with
  | ⟨0, _⟩ => rfl
  | ⟨1, _⟩ => rfl
  | ⟨2, _⟩ => exact Fin.ext (by have h : (y 2).val < 1 := (y 2).isLt; show (y 2).val = 0; omega)

/-- Both index blocks hold words below 250: they were clamped into [0, 249]. -/
theorem b1_lt (c : Dev nD) (t : Fin cfg0.N) (y : S4x25x1.Idx) : (b1 m c t y).toNat < 250 := by
  rw [col_idx y, b1_apply, toNat_clip]
  omega

theorem b2_lt (c : Dev nD) (hn : ∀ i, 0 ≤ (nlvA m c i).toInt) (t : Fin cfg0.N) (y : S4x25x1.Idx) : (b2 m c t y).toNat < 250 := by
  rw [col_idx y, b2_apply m c hn, toNat_clip]
  omega

/-- The two tables are staged whole. -/
theorem b3_eq (c : Dev nD) (t : Fin cfg0.N) : b3 m c t = coordsA m c := by
  obtain ⟨-, -, -, -, -, -, -, -, -, e0, e1, -⟩ := idx_facts t
  funext y
  show (V m c main_arg1 : S250x2.Idx → EReal) (((cfg0.win 3).blk t).view.emb y) = _
  have he : ((cfg0.win 3).blk t).view.emb y = y := by
    funext d; apply Fin.ext
    match d with
    | ⟨0, _⟩ => show win0_3.index t (0 : Fin 2) * 250 + 1 * (y 0).val = (y 0).val; omega
    | ⟨1, _⟩ => show win0_3.index t (1 : Fin 2) * 2 + 1 * (y 1).val = (y 1).val; omega
  rw [he]
  exact congrFun (V_main_arg1 m c) y

theorem b4_eq (c : Dev nD) (t : Fin cfg0.N) : b4 m c t = adjA m c := by
  obtain ⟨-, -, -, -, -, -, -, -, -, -, -, e0, e1, -⟩ := idx_facts t
  funext y
  show (V m c main_arg2 : S250x250.Idx → EReal) (((cfg0.win 4).blk t).view.emb y) = _
  have he : ((cfg0.win 4).blk t).view.emb y = y := by
    funext d; apply Fin.ext
    match d with
    | ⟨0, _⟩ => show win0_4.index t (0 : Fin 2) * 250 + 1 * (y 0).val = (y 0).val; omega
    | ⟨1, _⟩ => show win0_4.index t (1 : Fin 2) * 250 + 1 * (y 1).val = (y 1).val; omega
  rw [he]
  exact congrFun (V_main_arg2 m c) y

/-! ## What point t stores, entry by entry -/

/-- The body's stored value at block entry (tb, a, 6 j + ch) is the specification at (4 t + tb, a, j, ch). -/
theorem stored_eq (c : Dev nD) (hn : ∀ i, 0 ≤ (nlvA m c i).toInt) (t : Fin cfg0.N) (tb : Fin 4) (a : Fin 25) (j : Fin 250)
    (ch : Fin 6) :
    k0_pay1 (F := Ideal) (b1 m c t) (b2 m c t) (b3 m c t) (b4 m c t) (b0 m c t) (ix3 tb a (Kern.flat6 j ch))
      = G (stateA m c) (coordsA m c) (adjA m c) (nlvA m c) (pidxA m c) (ix4 (batchOf t tb) a j ch) := by
  by_cases h3 : ch.val < 3
  · refine (Kern.pay_state (b1 m c t) (b2 m c t) (b3 m c t) (b4 m c t) (b0 m c t) tb a j ch h3).trans ?_
    rw [G_state _ _ _ _ _ (batchOf t tb) a j ch h3, b0_apply]
    refine congrArg (stateA m c) ?_
    funext d
    match d with
    | ⟨0, _⟩ => rfl
    | ⟨1, _⟩ => rfl
    | ⟨2, _⟩ => exact Fin.ext (by show (3 * j.val + ch.val) / 3 = j.val; omega)
    | ⟨3, _⟩ => exact Fin.ext (by show (3 * j.val + ch.val) % 3 = ch.val; omega)
  · by_cases h5 : ch.val < 5
    · have h3' : 3 ≤ ch.val := Nat.le_of_not_lt h3
      refine (Kern.pay_coords (b1 m c t) (b2 m c t) (b3 m c t) (b4 m c t) (b0 m c t) (b1_lt m c t) tb a j ch h3' h5).trans ?_
      rw [G_coords _ _ _ _ _ (batchOf t tb) a j ch h3' h5]
      refine (congrFun (b3_eq m c t) _).trans ?_
      refine congrArg (coordsA m c) ?_
      funext d
      match d with
      | ⟨0, _⟩ =>
        apply Fin.ext
        show (Kern.wordOf (b1 m c t) (Kern.rowNo tb a)).toNat = (nodeRow (nlvA m c) (batchOf t tb) a).val
        rw [Kern.wordOf_rowNo, b1_apply, toNat_clip]
        rfl
      | ⟨1, _⟩ => rfl
    · have h5' : ch.val = 5 := by have := ch.isLt; omega
      refine (Kern.pay_adj (b1 m c t) (b2 m c t) (b3 m c t) (b4 m c t) (b0 m c t) (b2_lt m c hn t) tb a j ch h5').trans ?_
      rw [G_adj _ _ _ _ _ (batchOf t tb) a j ch h5']
      refine (congrFun (b4_eq m c t) _).trans ?_
      refine congrArg (adjA m c) ?_
      funext d
      match d with
      | ⟨0, _⟩ =>
        apply Fin.ext
        show (Kern.wordOf (b2 m c t) (Kern.rowNo tb a)).toNat = (patrolRow (nlvA m c) (pidxA m c) (batchOf t tb) a).val
        rw [Kern.wordOf_rowNo, b2_apply m c hn, toNat_clip]
        rfl
      | ⟨1, _⟩ => rfl

/-- The flattened specification at flat position 6 j + ch. -/
theorem G3_flat (c : Dev nD) (b : Fin 1024) (a : Fin 25) (j : Fin 250) (ch : Fin 6) :
    G3 m c (ix3 b a (Kern.flat6 j ch)) = G (stateA m c) (coordsA m c) (adjA m c) (nlvA m c) (pidxA m c) (ix4 b a j ch) := by
  unfold G3
  refine congrArg (G (stateA m c) (coordsA m c) (adjA m c) (nlvA m c) (pidxA m c)) ?_
  funext d
  match d with
  | ⟨0, _⟩ => rfl
  | ⟨1, _⟩ => rfl
  | ⟨2, _⟩ => exact Fin.ext (by show (6 * j.val + ch.val) / 6 = j.val; have := ch.isLt; omega)
  | ⟨3, _⟩ => exact Fin.ext (by show (6 * j.val + ch.val) % 6 = ch.val; have := ch.isLt; omega)

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT POINT t WRITES BACK is block t of the flattened specification. -/
theorem flushed_eq (c : Dev nD) (hn : ∀ i, 0 ≤ (nlvA m c i).toInt) (t : Fin cfg0.N) :
    (dats m 0 c).flushed 5 t = ((cfg0.win 5).blk t).view.read (Elt Ideal) (G3 m c) := by
  show (cfg0.win 5).cut (grid0.coords t) ((dats m 0 c).after 5 t) = _
  rw [after0_5]
  unfold out0_5
  rw [View.canon_unit_zero hz3]
  simp only [View.ld_unit_zero (S := S4x25x1) hz3, View.ld_unit_zero (S := S4x25x750) hz3,
    View.ld_unit_zero (S := S250x2) hz2, View.ld_unit_zero (S := S250x250) hz2]
  obtain ⟨-, -, -, -, -, -, -, -, -, -, -, -, -, e0, e1, e2⟩ := idx_facts t
  show (fun y : S4x25x1500.Idx => k0_pay1 (F := Ideal) (b1 m c t) (b2 m c t) (b3 m c t) (b4 m c t) (b0 m c t) y)
    = fun y : S4x25x1500.Idx => G3 m c (((cfg0.win 5).blk t).view.emb y)
  funext y
  obtain ⟨tb, a, jj, rfl⟩ : ∃ (tb : Fin 4) (a : Fin 25) (jj : Fin 1500), y = ix3 tb a jj :=
    ⟨⟨(y 0).val, (y 0).isLt⟩, ⟨(y 1).val, (y 1).isLt⟩, ⟨(y 2).val, (y 2).isLt⟩, by
      funext d
      match d with
      | ⟨0, _⟩ => rfl
      | ⟨1, _⟩ => rfl
      | ⟨2, _⟩ => rfl⟩
  obtain ⟨j, ch, rfl⟩ : ∃ (j : Fin 250) (ch : Fin 6), jj = Kern.flat6 j ch :=
    ⟨⟨jj.val / 6, by have := jj.isLt; omega⟩, ⟨jj.val % 6, by omega⟩, Fin.ext (by show jj.val = 6 * (jj.val / 6) + jj.val % 6; omega)⟩
  have he : ((cfg0.win 5).blk t).view.emb (ix3 tb a (Kern.flat6 j ch)) = ix3 (batchOf t tb) a (Kern.flat6 j ch) := by
    funext d; apply Fin.ext
    match d with
    | ⟨0, _⟩ => show win0_5.index t (0 : Fin 3) * 4 + 1 * tb.val = 4 * t.val + tb.val; omega
    | ⟨1, _⟩ => show win0_5.index t (1 : Fin 3) * 25 + 1 * a.val = a.val; omega
    | ⟨2, _⟩ => show win0_5.index t (2 : Fin 3) * 1500 + 1 * (6 * j.val + ch.val) = 6 * j.val + ch.val; omega
  rw [he, G3_flat]
  exact stored_eq m c hn t tb a j ch

/-- An index of the array is in point t's block iff each coordinate is in the block's range on its axis. -/
theorem mem_blk (t : Fin cfg0.N) (i : S1024x25x1500.Idx) :
    i ∈ ((cfg0.win 5).blk t).view.set ↔ ∀ a : Fin 3, win0_5.index t a * S4x25x1500.size a ≤ (i a).val
      ∧ (i a).val < win0_5.index t a * S4x25x1500.size a + S4x25x1500.size a := by
  show i ∈ ((View.whole main_v12).slice (win0_5.rect t)).set ↔ _
  rw [View.set_slice_whole, Rect.mem_set_unit]
  exact Iff.rfl

/-- The 256 blocks cover the array: batch b is in the block of point b / 4. -/
theorem cover (i : S1024x25x1500.Idx) :
    ∃ t : Fin cfg0.N, (cfg0.win 5).flush t = true ∧ i ∈ ((cfg0.win 5).blk t).view.set := by
  have h0 : (i 0).val < 1024 := (i 0).isLt
  have h1 : (i 1).val < 25 := (i 1).isLt
  have h2 : (i 2).val < 1500 := (i 2).isLt
  have hN : (i 0).val / 4 < cfg0.N := by rw [show cfg0.N = 256 from N_0]; omega
  refine ⟨⟨(i 0).val / 4, hN⟩, flush0_5 _, ?_⟩
  obtain ⟨-, -, -, -, -, -, -, -, -, -, -, -, -, e0, e1, e2⟩ := idx_facts ⟨(i 0).val / 4, hN⟩
  rw [mem_blk]
  intro a
  match a with
  | ⟨0, _⟩ =>
    show win0_5.index ⟨(i 0).val / 4, hN⟩ (0 : Fin 3) * 4 ≤ (i 0).val ∧ (i 0).val < win0_5.index ⟨(i 0).val / 4, hN⟩ (0 : Fin 3) * 4 + 4
    rw [e0]
    show (i 0).val / 4 * 4 ≤ (i 0).val ∧ (i 0).val < (i 0).val / 4 * 4 + 4
    omega
  | ⟨1, _⟩ =>
    show win0_5.index ⟨(i 0).val / 4, hN⟩ (1 : Fin 3) * 25 ≤ (i 1).val ∧ (i 1).val < win0_5.index ⟨(i 0).val / 4, hN⟩ (1 : Fin 3) * 25 + 25
    omega
  | ⟨2, _⟩ =>
    show win0_5.index ⟨(i 0).val / 4, hN⟩ (2 : Fin 3) * 1500 ≤ (i 2).val ∧ (i 2).val < win0_5.index ⟨(i 0).val / 4, hN⟩ (2 : Fin 3) * 1500 + 1500
    omega

/-- THE LAUNCH'S OUTPUT ARRAY after the run is the flattened specification. -/
theorem final (c : Dev nD) (hn : ∀ i, 0 ≤ (nlvA m c i).toInt) : (dats m 0 c).arrAt 5 cfg0.N = G3 m c :=
  (dats m 0 c).arrAt_eq_of_cover 5 (G3 m c) (fun t _ => flushed_eq m c hn t) (cover)

end Cert.GatherConcat.KVal

end
-- ==== Proof.KernelRun.lean ====
/-
  The kernel program's run, read: after the launch one reshape splits the 1500 axis of the output array back into
  (node, channel), so the result array is the specification entry by entry; the five argument arrays end unchanged.
-/
import proofs.«412221_j40123584479691_4_alg».proof.Proof.KernelValue
import Idealize.ShloMosaic.Lib.StableHlo.Run

set_option maxRecDepth 16384

noncomputable section

namespace Cert.GatherConcat.KVal

open Idealize.ShloMosaic Idealize.ShloMosaic.ValueIdx Idealize.ShloMosaic.TcCoe Idealize.SL.Sem
open Cert.KernelIdeal Cert.KernelIdeal.Gen Cert.GatherConcat

variable (m : (ℓ : Loc nD τ sig) → Buf (Elt Ideal) ℓ) (ρ : Dev nD → PrngReg)

/-- The result buffer after the host's last operation is the launch's output array reshaped. -/
theorem tail_eq (c : Dev nD) :
    (Pipeline.afterTail₀ cfgs (dats m) 0 (V0 m) [hostOps1] c main_v13 : S1024x25x250x6.Idx → EReal)
      = shapeCast S1024x25x250x6 ((dats m 0 c).arrAt 5 cfg0.N : S1024x25x1500.Idx → EReal)
          shapeCasts_S1024x25x1500_S1024x25x250x6 := by
  unfold Pipeline.afterTail₀
  show StableHlo.after hostOps1 _ (Proc.devRef .tc main_v13) = _
  after_results
  have hw := Pipeline.withArrays_arr spec0 launch0.win.arr_inj c (V0 m c) (fun w => (dats m 0 c).arrAt w cfg0.N) 5
  show (fun i => shapeCast S1024x25x250x6
      (Pipeline.withArrays spec0 c (V0 m c) (fun w => (dats m 0 c).arrAt w cfg0.N) (Proc.devRef .tc (Pipeline.arrRef spec0 5)))
      shapeCasts_S1024x25x1500_S1024x25x250x6 i) = _
  rw [hw]

/-- THE RESULT ARRAY is the specification. -/
theorem result_eq (c : Dev nD) (hn : ∀ i, 0 ≤ (nlvA m c i).toInt) :
    (Pipeline.afterTail₀ cfgs (dats m) 0 (V0 m) [hostOps1] c main_v13 : S1024x25x250x6.Idx → EReal)
      = G (stateA m c) (coordsA m c) (adjA m c) (nlvA m c) (pidxA m c) := by
  rw [tail_eq, final m c hn]
  funext i
  obtain ⟨b, a, j, ch, rfl⟩ : ∃ (b : Fin 1024) (a : Fin 25) (j : Fin 250) (ch : Fin 6), i = ix4 b a j ch :=
    ⟨i 0, i 1, i 2, i 3, eq_ix4 i⟩
  refine (shapeCast_apply _ shapeCasts_S1024x25x1500_S1024x25x250x6 (ix4 b a j ch) (ix3 b a (Kern.flat6 j ch)) ?_).trans
    (G3_flat m c b a j ch)
  rw [Shape.rowMajor_val_three, Shape.rowMajor_val_four]
  show (b.val * 25 + a.val) * 1500 + (6 * j.val + ch.val) = ((b.val * 25 + a.val) * 250 + j.val) * 6 + ch.val
  omega

/-- The kernel program runs to the specification in its result buffer, its arguments unchanged. -/
theorem run (hn : ∀ (c : Dev nD) i, 0 ≤ (nlvA m c i).toInt) :
    θ_run defs (onTc (τ := τ) (main (F := Ideal))) ⟨m, fun _ => 0, ρ⟩ (fun r => ∀ c : Dev nD,
      r.2.mem ((c.tc : Thread nD τ).loc main_v13) = G (stateA m c) (coordsA m c) (adjA m c) (nlvA m c) (pidxA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v13 (Pipeline.mem_restRefs_of main_v13 (by decide) (by decide))).trans (result_eq m c (hn c)),
      (((h c).2 main_arg0 (Pipeline.mem_restRefs_of main_arg0 (by decide) (by decide))).trans (W_main_arg0 m (dats m) c)),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.GatherConcat.KVal

end
-- ==== Proof.lean ====
/-
  The kernel fuses two table look-ups into the copy of state: per (batch, agent) it appends to each node's three
  state channels the two coordinates of the last visited node (a row of nodes_coords) and one entry of the row of
  adj that the node's patrol position names. It realises each look-up as the product of a 0/1 indicator matrix with
  the table; the reference indexes the tables directly.

  The two agree entry by entry (Proof/Spec.lean states the common result as one function of the argument arrays):
    - a column of a table summed against the indicator of row r is the entry of row r, on the extended reals with no
      finiteness asked, since 0 * x = 0 and 0 + x = x for every extended real x;
    - the kernel clamps each index word into [0, 249] before comparing it with the lane numbers, and the reference's
      look-up clamps its start index into the table the same way, so for a non-negative word both name the same row;
    - for a negative word the reference first adds 250 (index from the end) while the kernel clamps to row 0: that is
      where the two would differ, and the precondition (every word of node_last_visit and of patrol_index is at
      least 0) excludes it. Nothing else of the precondition is used.
  The modules: Spec (the common result, the indicator sum, the word facts), PreDecode (the precondition gives the two
  sign facts), RefValue (the reference's last stage is the specification), KernelPayload (the body's stored value at
  an index), KernelHost (the arrays the host prepares before the launch), KernelValue (blocks to the whole output
  array), KernelRun (the reshape after the launch, and the kernel's run read).
-/
import proofs.«412221_j40123584479691_4_alg».proof.Defs
import proofs.«412221_j40123584479691_4_alg».proof.Proof.Gen.Kernel
import proofs.«412221_j40123584479691_4_alg».proof.Proof.Gen.Kernel.Skeleton
import proofs.«412221_j40123584479691_4_alg».proof.Proof.Gen.Kernel.Launch
import proofs.«412221_j40123584479691_4_alg».proof.Proof.Gen.Kernel.Points
import proofs.«412221_j40123584479691_4_alg».proof.Proof.Gen.Kernel.Frame
import proofs.«412221_j40123584479691_4_alg».proof.Proof.Gen.KernelIdeal
import proofs.«412221_j40123584479691_4_alg».proof.Proof.Gen.KernelIdeal.Skeleton
import proofs.«412221_j40123584479691_4_alg».proof.Proof.Gen.KernelIdeal.Launch
import proofs.«412221_j40123584479691_4_alg».proof.Proof.Gen.KernelIdeal.Points
import proofs.«412221_j40123584479691_4_alg».proof.Proof.Gen.KernelIdeal.Frame
import proofs.«412221_j40123584479691_4_alg».proof.Proof.Gen.ReferenceIdeal
import proofs.«412221_j40123584479691_4_alg».proof.Proof.Gen.ReferenceIdeal.Run
import proofs.«412221_j40123584479691_4_alg».proof.Proof.Gen.ReferenceIdeal.Read
import proofs.«412221_j40123584479691_4_alg».proof.Proof.Gen.Pre_finite_inputs
import proofs.«412221_j40123584479691_4_alg».proof.Proof.PreDecode
import proofs.«412221_j40123584479691_4_alg».proof.Proof.RefValue
import proofs.«412221_j40123584479691_4_alg».proof.Proof.KernelRun
import Idealize.ShloMosaic.Adequacy
import Idealize.ShloMosaic.Init

noncomputable section

namespace Cert.Proof

open Idealize.ShloMosaic Idealize.SL.Sem

/-- The word-level kernel's frame is generated whole. -/
theorem frame_k : Cert.frame_Kernel := fun m ρ _ => Cert.Kernel.Gen.frame m ρ

/-- So is the idealized kernel's. -/
theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's array in their result buffers. -/
theorem algebraic : Cert.algebraic_KernelIdeal_ReferenceIdeal := by
  intro m ρ m' ρ' hpre hagree
  have hnn : ∀ c : Dev Cert.KernelIdeal.nD,
      (∀ i, 0 ≤ (Cert.GatherConcat.KVal.nlvA m c i).toInt) ∧ (∀ i, 0 ≤ (Cert.GatherConcat.KVal.pidxA m c i).toInt) :=
    fun c => Cert.GatherConcat.Pre.nonneg_of_pre _ _ _ _ _ (hpre c)
  refine ⟨fun c => Cert.GatherConcat.G (Cert.GatherConcat.KVal.stateA m c) (Cert.GatherConcat.KVal.coordsA m c)
      (Cert.GatherConcat.KVal.adjA m c) (Cert.GatherConcat.KVal.nlvA m c) (Cert.GatherConcat.KVal.pidxA m c),
    Cert.GatherConcat.KVal.run m ρ (fun c => (hnn c).1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.1, (hagree c).2.2.2.1,
    (hagree c).2.2.2.2]
  exact Cert.GatherConcat.Ref.val_eq_G _ _ _ _ _ (hnn c).1 (hnn c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
